-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45_1)) (v1 : (c : Dev Cert.KernelIdeal.nD) → Buf (Elt Ideal) ((c.tc : Thread Cert.KernelIdeal.nD Cert.KernelIdeal.τ).loc Cert.KernelIdeal.main_v45_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_1) = v0 c
          ∧ r.2.mem ((c.tc : Thread Cert.KernelIdeal.nD Cert.KernelIdeal.τ).loc Cert.KernelIdeal.main_v45_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x10 .f32) (main_arg15 : FVec F S10 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x10 .f32 := Host.absf main_arg14
  let main_cst_22 : FVec F S_ .f32 := constant S_ .f32 0x7F800000#32
  let main_v60 : FVec F S32x10 .f32 := broadcastInDim S32x10 ![] bcast_S_S32x10 main_cst_22
  let main_v61 : IVec S32x10 1 := cmpf .olt main_v59 main_v60
  let main_c_23 : IVec S_ 1 := constantI S_ 1 1#1
  let main_v62 : IVec S_ 1 := (fun x v => Host.reduce IntOp.andi x v reducesTo_S32x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg9 : FVec F S128 .f32) (main_arg10 : FVec F S128x64 .f32) (main_arg11 : FVec F S64 .f32) (main_arg12 : FVec F S64x32 .f32) (main_arg13 : FVec F S32 .f32) (main_arg14 : FVec F S32x10 .f32) (main_arg15 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S256 .f32) (main_arg7 : FVec F S256x128 .f32) (main_arg8 : FVec F S256x128 .f32) (main_arg9 : FVec F S128 .f32) (main_arg10 : FVec F S128x64 .f32) (main_arg11 : FVec F S64 .f32) (main_arg12 : FVec F S64x32 .f32) (main_arg13 : FVec F S32 .f32) (main_arg14 : FVec F S32x10 .f32) (main_arg15 : FVec F S10 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S800000 32) (main_arg2 : IVec S800000 32) (main_arg3 : FVec F S800000 .f32) (main_arg4 : FVec F S64x256 .f32) (main_arg5 : FVec F S64x256 .f32) (main_arg6 : FVec F S256 .f32) (main_arg7 : FVec F S256x128 .f32) (main_arg8 : FVec F S256x128 .f32) (main_arg9 : FVec F S128 .f32) (main_arg10 : FVec F S128x64 .f32) (main_arg11 : FVec F S64 .f32) (main_arg12 : FVec F S64x32 .f32) (main_arg13 : FVec F S32 .f32) (main_arg14 : FVec F S32x10 .f32) (main_arg15 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg5
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000 : Shape := ⟨1, ![800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x256 : Shape := ⟨2, ![1, 256]⟩
abbrev S50000x256 : Shape := ⟨2, ![50000, 256]⟩
abbrev S2000x64 : Shape := ⟨2, ![2000, 64]⟩
abbrev S2000x256 : Shape := ⟨2, ![2000, 256]⟩
abbrev S800000x256 : Shape := ⟨2, ![800000, 256]⟩
abbrev S1x128 : Shape := ⟨2, ![1, 128]⟩
abbrev S1x64 : Shape := ⟨2, ![1, 64]⟩
abbrev S1x32 : Shape := ⟨2, ![1, 32]⟩
abbrev S1x10 : Shape := ⟨2, ![1, 10]⟩
abbrev S50000x128 : Shape := ⟨2, ![50000, 128]⟩
abbrev S50000x10 : Shape := ⟨2, ![50000, 10]⟩
abbrev S2000x128 : Shape := ⟨2, ![2000, 128]⟩
abbrev S2000x10 : Shape := ⟨2, ![2000, 10]⟩
abbrev S2000x32 : Shape := ⟨2, ![2000, 32]⟩

abbrev nBuf : Space → Nat
  | .hbm => 75
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x256, .f32⟩
  | .hbm, ⟨5, _⟩ => ⟨S64x256, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x10, .f32⟩
  | .hbm, ⟨15, _⟩ => ⟨S10, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S800000x1, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x1, .f32⟩
  | .hbm, ⟨46, _⟩ => ⟨S50000x64, .f32⟩
  | .hbm, ⟨47, _⟩ => ⟨S50000x64, .f32⟩
  | .hbm, ⟨48, _⟩ => ⟨S1x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x1, .f32⟩
  | .hbm, ⟨60, _⟩ => ⟨S800000x256, .f32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S1x128, .f32⟩
  | .hbm, ⟨70, _⟩ => ⟨S1x64, .f32⟩
  | .hbm, ⟨71, _⟩ => ⟨S1x32, .f32⟩
  | .hbm, ⟨72, _⟩ => ⟨S1x10, .f32⟩
  | .hbm, ⟨73, _⟩ => ⟨S50000x128, .f32⟩
  | .hbm, ⟨74, _⟩ => ⟨S50000x10, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S64x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S64x32, .f32⟩
  | .local _ .vmem, ⟨19, _⟩ => ⟨S1x32, .f32⟩
  | .local _ .vmem, ⟨20, _⟩ => ⟨S32x10, .f32⟩
  | .local _ .vmem, ⟨21, _⟩ => ⟨S1x10, .f32⟩
  | .local _ .vmem, ⟨22, _⟩ => ⟨S2000x128, .f32⟩
  | .local _ .vmem, ⟨23, _⟩ => ⟨S2000x128, .f32⟩
  | .local _ .vmem, ⟨24, _⟩ => ⟨S2000x10, .f32⟩
  | .local _ .vmem, ⟨25, _⟩ => ⟨S2000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45_0 : Ref sig .tc := ⟨.hbm, 73, rfl⟩
abbrev main_v45_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc1_sem12_0 : DmaSem sig := 24
abbrev cc1_sem12_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x10 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S64_S1x64 : S64.ShapeCasts S1x64
  shapeCasts_S32_S1x32 : S32.ShapeCasts S1x32
  shapeCasts_S10_S1x10 : S10.ShapeCasts S1x10
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  dot_S2000x32_S32x10_S2000x10_1_0_0_1_n_n_wf : DotDims.WF S2000x32 S32x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x10.size a ≤ S32x10.size a
  hwx1_9 : ∀ i : grid1.Coords, EltTy.bits .f32 = 32 ∨ (Rect.block (s := S32x10) S32x10.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x10.size a ≤ S1x10.size a
  hwx1_10 : ∀ i : grid1.Coords, EltTy.bits .f32 = 32 ∨ (Rect.block (s := S1x10) S1x10.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x10.size a ≤ S50000x10.size a
  hwx1_12 : ∀ i : grid1.Coords, EltTy.bits .f32 = 32 ∨ (Rect.block (s := S50000x10) S2000x10.size (cc1_transform_12 i) (hinb1_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x10_S2000x10_1_0_0_1_n_n : DotDims S2000x32 S32x10 S2000x10 where
  lhsContracting := [1]
  rhsContracting := [0]
  lhsNonContracting := [0]
  rhsNonContracting := [1]
  lhsBatch := []
  rhsBatch := []
  wf := dot_S2000x32_S32x10_S2000x10_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S32x10.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S1x10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v45_0) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v45_1) S2000x10.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S1x64 : Shape := ⟨2, ![1, 64]⟩
abbrev S50000x32 : Shape := ⟨2, ![50000, 32]⟩
abbrev S1x32 : Shape := ⟨2, ![1, 32]⟩
abbrev S50000x10 : Shape := ⟨2, ![50000, 10]⟩
abbrev S1x10 : Shape := ⟨2, ![1, 10]⟩

abbrev nBuf : Space → Nat
  | .hbm => 107
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x256, .f32⟩
  | .hbm, ⟨5, _⟩ => ⟨S64x256, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x10, .f32⟩
  | .hbm, ⟨15, _⟩ => ⟨S10, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x1, .f32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S800000x1, .f32⟩
  | .hbm, ⟨64, _⟩ => ⟨S800000x256, .f32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x256, .f32⟩
  | .hbm, ⟨82, _⟩ => ⟨S50000x256, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S50000x32, .f32⟩
  | .hbm, ⟨97, _⟩ => ⟨S1x32, .f32⟩
  | .hbm, ⟨98, _⟩ => ⟨S50000x32, .f32⟩
  | .hbm, ⟨99, _⟩ => ⟨S50000x32, .f32⟩
  | .hbm, ⟨100, _⟩ => ⟨S_, .f32⟩
  | .hbm, ⟨101, _⟩ => ⟨S50000x32, .f32⟩
  | .hbm, ⟨102, _⟩ => ⟨S50000x32, .f32⟩
  | .hbm, ⟨103, _⟩ => ⟨S50000x10, .f32⟩
  | .hbm, ⟨104, _⟩ => ⟨S1x10, .f32⟩
  | .hbm, ⟨105, _⟩ => ⟨S50000x10, .f32⟩
  | .hbm, ⟨106, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call4_cst : Ref sig .tc := ⟨.hbm, 100, rfl⟩
abbrev main_call4_v0 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  dot_S50000x32_S32x10_S50000x10_1_0_0_1_n_n_wf : DotDims.WF S50000x32 S32x10 S50000x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x10_S50000x10_1_0_0_1_n_n : DotDims S50000x32 S32x10 S50000x10 where
  lhsContracting := [1]
  rhsContracting := [0]
  lhsNonContracting := [0]
  rhsNonContracting := [1]
  lhsBatch := []
  rhsBatch := []
  wf := dot_S50000x32_S32x10_S50000x10_1_0_0_1_n_n_wf

class Facts : Prop extends Facts₀ where

variable [Facts]
-- ==== Proof.Agg.lean ====
import proofs.«152002_j20469814132750_1_alg».proof.Proof.Gen.KernelIdeal
import Idealize.ShloMosaic.PureOps.Ideal

/-!
# The host side of the graph convolution: the aggregation and the degrees, as whole-array operations

The program gathers the rows of a feature array at the edges' sources (a negative source index wrapped once by the
number of nodes), scales row `e` by the weight of edge `e`, and adds the rows into their destinations: `agg64`,
`agg256` (64 and 256 features). The in-degree of a node is the same scatter-add of ones, clipped below at one:
`degClip`; `degInv` is its reciprocal, and `scale64` / `scale256` multiply row `r` of an array by entry `r` of a
vector. None of these is opened at an index here: the two programs apply the same operations to the same operands.
-/

noncomputable section

namespace Cert.KernelIdeal.Hand

open Idealize.ShloMosaic Cert.KernelIdeal Cert.KernelIdeal.Gen

/-- The sources as gather indices: a negative index has the number of nodes added once; laid as a column. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Rows of `x` gathered at the sources, scaled by the edge weights, summed into the destinations (64 features). -/
def agg64 (src dst : IVec S800000 32) (w : FVec Ideal S800000 .f32) (x : FVec Ideal S50000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (Host.gather gather_S50000x64_S800000x1_S800000x64_1_0_n_n_0_1_164 x (srcIdx src))
      (broadcastInDim S800000x64 ![0, 1] bcast_S800000x1_S800000x64_0_1 (broadcastInDim S800000x1 ![0] bcast_S800000_S800000x1_0 w)))

/-- The same with 256 features. -/
def agg256 (src dst : IVec S800000 32) (w : FVec Ideal S800000 .f32) (x : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (mulf (Host.gather gather_S50000x256_S800000x1_S800000x256_1_0_n_n_0_1_1256 x (srcIdx src))
      (broadcastInDim S800000x256 ![0, 1] bcast_S800000x1_S800000x256_0_1 (broadcastInDim S800000x1 ![0] bcast_S800000_S800000x1_0 w)))

/-- The in-degrees (ones summed into the destinations), clipped below at one. -/
def degClip (dst : IVec S800000 32) : FVec Ideal S50000 .f32 :=
  maximumf (broadcastInDim S50000 ![] bcast_S_S50000 (id (constant (F := Ideal) S_ .f32 0x3F800000#32)))
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))

/-- One over the clipped degrees. -/
def degInv (dst : IVec S800000 32) : FVec Ideal S50000 .f32 :=
  Host.divf (broadcastInDim S50000 ![] bcast_S_S50000 (constant (F := Ideal) S_ .f32 0x3F800000#32)) (degClip dst)

/-- Row `r` of `s` times entry `r` of `e` (64 features): `e` laid as a column and broadcast along the rows. -/
def scale64 (s : FVec Ideal S50000x64 .f32) (e : FVec Ideal S50000 .f32) : FVec Ideal S50000x64 .f32 :=
  mulf s (broadcastInDim S50000x64 ![0, 1] bcast_S50000x1_S50000x64_0_1 (broadcastInDim S50000x1 ![0] bcast_S50000_S50000x1_0 e))

/-- The same with 256 features. -/
def scale256 (s : FVec Ideal S50000x256 .f32) (e : FVec Ideal S50000 .f32) : FVec Ideal S50000x256 .f32 :=
  mulf s (broadcastInDim S50000x256 ![0, 1] bcast_S50000x1_S50000x256_0_1 (broadcastInDim S50000x1 ![0] bcast_S50000_S50000x1_0 e))

end Cert.KernelIdeal.Hand

end
-- ==== Proof.HostVals.lean ====
import proofs.«152002_j20469814132750_1_alg».proof.Proof.Gen.KernelIdeal.Frame
import proofs.«152002_j20469814132750_1_alg».proof.Proof.Agg
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## Which buffers a stretch of host operations writes

Each host operation writes one buffer, its result's. A buffer that is no operation's result holds after a stretch
what it held before it; an argument of the program is no operation's result, so it holds the launch memory's contents
at every boundary. -/

/-- The results of the first stretch. -/
private def wr0 : List (Ref sig .tc) := [main_cst, main_v0, main_cst_0, main_v1, main_v2, main_v3, main_cst_1]
/-- The results of the clipping stretch. -/
private def wr1 : List (Ref sig .tc) := [main_call0_v0, main_call0_v1, main_v4]
/-- The results of the stretch before the first region. -/
private def wr2 : List (Ref sig .tc) :=
  [main_cst_2, main_v5, main_v6, main_c, main_v7, main_v8, main_c_3, main_v9, main_v10, main_v11, main_v12, main_v13,
   main_v14, main_v15, main_v16, main_cst_4, main_v17, main_v18, main_v19, main_v20, main_v21, main_v22, main_v23]
/-- The results of the stretch between the two regions. -/
private def wr3 : List (Ref sig .tc) :=
  [main_c_5, main_v25, main_v26, main_c_6, main_v27, main_v28, main_v29, main_v30, main_v31, main_v32, main_v33, main_v34,
   main_cst_7, main_v35, main_v36, main_v37, main_v38, main_v39, main_v40, main_v41, main_v42, main_v43, main_v44]

private theorem hostOps0_wr :
    (hostOps0 (F := Ideal)).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem hostOps0_1_wr :
    (hostOps0_1 (F := Ideal)).Forall fun op => op.writes ⊆ (wr1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem hostOps0_2_wr :
    (hostOps0_2 (F := Ideal)).Forall fun op => op.writes ⊆ (wr2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem hostOps1_wr :
    (hostOps1 (F := Ideal)).Forall fun op => op.writes ⊆ (wr3.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer none of the three stretches before the first region writes is, at that region's entry, the launch memory's. -/
private theorem W3_kept (c : Dev nD) (r : Ref sig .tc) (h0 : r ∉ wr0) (h1 : r ∉ wr1) (h2 : r ∉ wr2) :
    W3 m ρ c (Proc.devRef .tc r) = m ((c : Thread nD τ).loc r) :=
  calc W3 m ρ c (Proc.devRef .tc r)
    _ = W2 m ρ c (Proc.devRef .tc r) := StableHlo.after_of_writes_sub _ _ hostOps0_2_wr h2
    _ = W1 m ρ c (Proc.devRef .tc r) := StableHlo.after_of_writes_sub _ _ hostOps0_1_wr h1
    _ = W0 m ρ c (Proc.devRef .tc r) := StableHlo.after_of_writes_sub _ _ hostOps0_wr h0
    _ = m ((c : Thread nD τ).loc r) := rfl

/-- The same one stretch earlier. -/
private theorem W2_kept (c : Dev nD) (r : Ref sig .tc) (h0 : r ∉ wr0) (h1 : r ∉ wr1) :
    W2 m ρ c (Proc.devRef .tc r) = m ((c : Thread nD τ).loc r) :=
  calc W2 m ρ c (Proc.devRef .tc r)
    _ = W1 m ρ c (Proc.devRef .tc r) := StableHlo.after_of_writes_sub _ _ hostOps0_1_wr h1
    _ = W0 m ρ c (Proc.devRef .tc r) := StableHlo.after_of_writes_sub _ _ hostOps0_wr h0
    _ = m ((c : Thread nD τ).loc r) := rfl

/-- A buffer that is neither an array of the first region nor a result of the stretch after it is, at the second
    region's entry, what it was at the first region's entry. -/
private theorem W5_kept (c : Dev nD) (r : Ref sig .tc) (h3 : r ∉ wr3) (hw : ∀ w, Pipeline.arrRef spec0 w ≠ r) :
    W5 m ρ c (Proc.devRef .tc r) = W3 m ρ c (Proc.devRef .tc r) :=
  calc W5 m ρ c (Proc.devRef .tc r)
    _ = W4 m ρ c (Proc.devRef .tc r) := StableHlo.after_of_writes_sub _ _ hostOps1_wr h3
    _ = W3 m ρ c (Proc.devRef .tc r) := W4_of_ne m ρ c r hw

/-! ## What each stretch computes, from any contents

Each lemma reads one result buffer after a stretch run from contents `V`, as the stretch's operations composed over
the operand buffers' contents in `V`. -/

section Stretch

variable (V : Valuation τ sig (Elt Ideal))

/-- The in-degrees: ones summed into the destinations. -/
private theorem s0_v3 (dst : IVec S800000 32) (h2 : V (Proc.devRef .tc main_arg2) = dst) :
    StableHlo.after hostOps0 V (Proc.devRef .tc main_v3)
      = Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)) := by
  subst h2
  after_results

/-- The scalar one the clipping takes. -/
private theorem s0_cst1 :
    StableHlo.after hostOps0 V (Proc.devRef .tc main_cst_1) = constant (F := Ideal) S_ .f32 0x3F800000#32 := by
  after_results

/-- The clipping: the larger of one and the in-degree. -/
private theorem s1_v4 (one : FVec Ideal S_ .f32) (deg : FVec Ideal S50000 .f32)
    (h1 : V (Proc.devRef .tc main_cst_1) = one) (h3 : V (Proc.devRef .tc main_v3) = deg) :
    StableHlo.after hostOps0_1 V (Proc.devRef .tc main_v4)
      = maximumf (broadcastInDim S50000 ![] bcast_S_S50000 (id one)) deg := by
  subst h1 h3
  after_results
  rfl

/-- One over the clipped degrees. -/
private theorem s2_v6 (clip : FVec Ideal S50000 .f32) (h4 : V (Proc.devRef .tc main_v4) = clip) :
    StableHlo.after hostOps0_2 V (Proc.devRef .tc main_v6)
      = Host.divf (broadcastInDim S50000 ![] bcast_S_S50000 (constant (F := Ideal) S_ .f32 0x3F800000#32)) clip := by
  subst h4
  after_results

/-- The scaled aggregate of the features. -/
private theorem s2_v22 (src dst : IVec S800000 32) (w : FVec Ideal S800000 .f32) (x : FVec Ideal S50000x64 .f32)
    (clip : FVec Ideal S50000 .f32)
    (h1 : V (Proc.devRef .tc main_arg1) = src) (h2 : V (Proc.devRef .tc main_arg2) = dst)
    (h3 : V (Proc.devRef .tc main_arg3) = w) (h0 : V (Proc.devRef .tc main_arg0) = x)
    (h4 : V (Proc.devRef .tc main_v4) = clip) :
    StableHlo.after hostOps0_2 V (Proc.devRef .tc main_v22)
      = scale64 (agg64 src dst w x)
          (Host.divf (broadcastInDim S50000 ![] bcast_S_S50000 (constant (F := Ideal) S_ .f32 0x3F800000#32)) clip) := by
  subst h1 h2 h3 h0 h4
  after_results
  rfl

/-- The first bias laid as one row. -/
private theorem s2_v23 (b : FVec Ideal S256 .f32) (h6 : V (Proc.devRef .tc main_arg6) = b) :
    StableHlo.after hostOps0_2 V (Proc.devRef .tc main_v23) = shapeCast S1x256 b shapeCasts_S256_S1x256 := by
  subst h6
  after_results
  rfl

/-- The scaled aggregate of the hidden features. -/
private theorem s3_v40 (src dst : IVec S800000 32) (w : FVec Ideal S800000 .f32) (x : FVec Ideal S50000x256 .f32)
    (e : FVec Ideal S50000 .f32)
    (h1 : V (Proc.devRef .tc main_arg1) = src) (h2 : V (Proc.devRef .tc main_arg2) = dst)
    (h3 : V (Proc.devRef .tc main_arg3) = w) (h24 : V (Proc.devRef .tc main_v24) = x)
    (h6 : V (Proc.devRef .tc main_v6) = e) :
    StableHlo.after hostOps1 V (Proc.devRef .tc main_v40) = scale256 (agg256 src dst w x) e := by
  subst h1 h2 h3 h24 h6
  after_results
  rfl

/-- The later biases laid as one row each. -/
private theorem s3_v41 (b : FVec Ideal S128 .f32) (h : V (Proc.devRef .tc main_arg9) = b) :
    StableHlo.after hostOps1 V (Proc.devRef .tc main_v41) = shapeCast S1x128 b shapeCasts_S128_S1x128 := by
  subst h
  after_results
  rfl

private theorem s3_v42 (b : FVec Ideal S64 .f32) (h : V (Proc.devRef .tc main_arg11) = b) :
    StableHlo.after hostOps1 V (Proc.devRef .tc main_v42) = shapeCast S1x64 b shapeCasts_S64_S1x64 := by
  subst h
  after_results
  rfl

private theorem s3_v43 (b : FVec Ideal S32 .f32) (h : V (Proc.devRef .tc main_arg13) = b) :
    StableHlo.after hostOps1 V (Proc.devRef .tc main_v43) = shapeCast S1x32 b shapeCasts_S32_S1x32 := by
  subst h
  after_results
  rfl

private theorem s3_v44 (b : FVec Ideal S10 .f32) (h : V (Proc.devRef .tc main_arg15) = b) :
    StableHlo.after hostOps1 V (Proc.devRef .tc main_v44) = shapeCast S1x10 b shapeCasts_S10_S1x10 := by
  subst h
  after_results
  rfl

end Stretch

/-! ## The boundaries between the stretches

The launch memory run through the stretches in order: the in-degrees and the scalar one after the first stretch, the
clipped degrees after the second, their reciprocals after the third; the first region changes none of these, nor any
argument it does not take. -/

/-- The clipped degrees, after the clipping stretch. -/
private theorem W2_v4 (c : Dev nD) :
    W2 m ρ c (Proc.devRef .tc main_v4) = degClip (m ((c : Thread nD τ).loc main_arg2)) := by
  have h := s1_v4 (W1 m ρ c) _ _ (s0_cst1 (W0 m ρ c)) (s0_v3 (W0 m ρ c) (m ((c : Thread nD τ).loc main_arg2)) rfl)
  exact h

/-- One over the clipped degrees, at the first region's entry. -/
private theorem W3_v6 (c : Dev nD) :
    W3 m ρ c (Proc.devRef .tc main_v6) = degInv (m ((c : Thread nD τ).loc main_arg2)) := by
  have h := s2_v6 (W2 m ρ c) _ (W2_v4 m ρ c)
  exact h

/-- A buffer that no stretch up to the first region's exit writes, and that is no array of that region, is the launch
    memory's at that exit. -/
private theorem W4_kept (c : Dev nD) (r : Ref sig .tc) (hw : ∀ w, Pipeline.arrRef spec0 w ≠ r)
    (h0 : r ∉ wr0) (h1 : r ∉ wr1) (h2 : r ∉ wr2) :
    W4 m ρ c (Proc.devRef .tc r) = m ((c : Thread nD τ).loc r) :=
  (W4_of_ne m ρ c r hw).trans (W3_kept m ρ c r h0 h1 h2)

/-- The same at the second region's entry. -/
private theorem W5_arg (c : Dev nD) (r : Ref sig .tc) (h3 : r ∉ wr3) (hw : ∀ w, Pipeline.arrRef spec0 w ≠ r)
    (h0 : r ∉ wr0) (h1 : r ∉ wr1) (h2 : r ∉ wr2) :
    W5 m ρ c (Proc.devRef .tc r) = m ((c : Thread nD τ).loc r) :=
  (W5_kept m ρ c r h3 hw).trans (W3_kept m ρ c r h0 h1 h2)

/-! ## The first region's arrays as it finds them -/

theorem V3_arg0 (c : Dev nD) : V3 m ρ c main_arg0 = (m ((c : Thread nD τ).loc main_arg0)) :=
  W3_kept m ρ c main_arg0 (by decide) (by decide) (by decide)

theorem V3_arg4 (c : Dev nD) : V3 m ρ c main_arg4 = (m ((c : Thread nD τ).loc main_arg4)) :=
  W3_kept m ρ c main_arg4 (by decide) (by decide) (by decide)

theorem V3_arg5 (c : Dev nD) : V3 m ρ c main_arg5 = (m ((c : Thread nD τ).loc main_arg5)) :=
  W3_kept m ρ c main_arg5 (by decide) (by decide) (by decide)

/-- The neighbourhood means the first region reads: the aggregated rows of the features times one over the degrees. -/
theorem V3_v22 (c : Dev nD) :
    V3 m ρ c main_v22 = scale64 (agg64 (m ((c : Thread nD τ).loc main_arg1)) (m ((c : Thread nD τ).loc main_arg2)) (m ((c : Thread nD τ).loc main_arg3)) (m ((c : Thread nD τ).loc main_arg0))) (degInv (m ((c : Thread nD τ).loc main_arg2))) := by
  have h := s2_v22 (W2 m ρ c) _ _ _ _ _
    (W2_kept m ρ c main_arg1 (by decide) (by decide)) (W2_kept m ρ c main_arg2 (by decide) (by decide))
    (W2_kept m ρ c main_arg3 (by decide) (by decide)) (W2_kept m ρ c main_arg0 (by decide) (by decide))
    (W2_v4 m ρ c)
  exact h

/-- The first bias as the first region reads it: the vector laid as one row. -/
theorem V3_v23 (c : Dev nD) : V3 m ρ c main_v23 = shapeCast S1x256 (m ((c : Thread nD τ).loc main_arg6)) shapeCasts_S256_S1x256 :=
  s2_v23 (W2 m ρ c) _ (W2_kept m ρ c main_arg6 (by decide) (by decide))

/-! ## The second region's arrays as it finds them -/

/-- The hidden features the second region reads are what the first region left. -/
theorem V5_v24 (c : Dev nD) : V5 m ρ c main_v24 = (dat0 (V3 m ρ) c).arrAt 5 cfg0.N :=
  calc V5 m ρ c main_v24
    _ = W4 m ρ c (Proc.devRef .tc main_v24) := StableHlo.after_of_writes_sub _ _ hostOps1_wr (by decide)
    _ = (dat0 (V3 m ρ) c).arrAt 5 cfg0.N := W4_arr m ρ c 5

/-- The neighbourhood means the second region reads: the aggregated rows of the hidden features times one over the degrees. -/
theorem V5_v40 (c : Dev nD) :
    V5 m ρ c main_v40 = scale256 (agg256 (m ((c : Thread nD τ).loc main_arg1)) (m ((c : Thread nD τ).loc main_arg2)) (m ((c : Thread nD τ).loc main_arg3)) ((dat0 (V3 m ρ) c).arrAt 5 cfg0.N)) (degInv (m ((c : Thread nD τ).loc main_arg2))) := by
  have h := s3_v40 (W4 m ρ c) _ _ _ _ _
    (W4_kept m ρ c main_arg1 (by decide) (by decide) (by decide) (by decide))
    (W4_kept m ρ c main_arg2 (by decide) (by decide) (by decide) (by decide))
    (W4_kept m ρ c main_arg3 (by decide) (by decide) (by decide) (by decide))
    (W4_arr m ρ c 5)
    ((W4_of_ne m ρ c main_v6 (by decide)).trans (W3_v6 m ρ c))
  exact h

theorem V5_v41 (c : Dev nD) : V5 m ρ c main_v41 = shapeCast S1x128 (m ((c : Thread nD τ).loc main_arg9)) shapeCasts_S128_S1x128 :=
  s3_v41 (W4 m ρ c) _ (W4_kept m ρ c main_arg9 (by decide) (by decide) (by decide) (by decide))

theorem V5_v42 (c : Dev nD) : V5 m ρ c main_v42 = shapeCast S1x64 (m ((c : Thread nD τ).loc main_arg11)) shapeCasts_S64_S1x64 :=
  s3_v42 (W4 m ρ c) _ (W4_kept m ρ c main_arg11 (by decide) (by decide) (by decide) (by decide))

theorem V5_v43 (c : Dev nD) : V5 m ρ c main_v43 = shapeCast S1x32 (m ((c : Thread nD τ).loc main_arg13)) shapeCasts_S32_S1x32 :=
  s3_v43 (W4 m ρ c) _ (W4_kept m ρ c main_arg13 (by decide) (by decide) (by decide) (by decide))

theorem V5_v44 (c : Dev nD) : V5 m ρ c main_v44 = shapeCast S1x10 (m ((c : Thread nD τ).loc main_arg15)) shapeCasts_S10_S1x10 :=
  s3_v44 (W4 m ρ c) _ (W4_kept m ρ c main_arg15 (by decide) (by decide) (by decide) (by decide))

theorem V5_arg7 (c : Dev nD) : V5 m ρ c main_arg7 = (m ((c : Thread nD τ).loc main_arg7)) :=
  W5_arg m ρ c main_arg7 (by decide) (by decide) (by decide) (by decide) (by decide)

theorem V5_arg8 (c : Dev nD) : V5 m ρ c main_arg8 = (m ((c : Thread nD τ).loc main_arg8)) :=
  W5_arg m ρ c main_arg8 (by decide) (by decide) (by decide) (by decide) (by decide)

theorem V5_arg10 (c : Dev nD) : V5 m ρ c main_arg10 = (m ((c : Thread nD τ).loc main_arg10)) :=
  W5_arg m ρ c main_arg10 (by decide) (by decide) (by decide) (by decide) (by decide)

theorem V5_arg12 (c : Dev nD) : V5 m ρ c main_arg12 = (m ((c : Thread nD τ).loc main_arg12)) :=
  W5_arg m ρ c main_arg12 (by decide) (by decide) (by decide) (by decide) (by decide)

theorem V5_arg14 (c : Dev nD) : V5 m ρ c main_arg14 = (m ((c : Thread nD τ).loc main_arg14)) :=
  W5_arg m ρ c main_arg14 (by decide) (by decide) (by decide) (by decide) (by decide)

end Cert.KernelIdeal.Hand

end
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.Spec.lean ====
import proofs.«152002_j20469814132750_1_alg».proof.Proof.LibDenseDefs
import Idealize.ShloMosaic.PureOps.Ideal
import Idealize.ShloMosaic.PureOps.Ideal.Laws
import Idealize.ShloMosaic.Lib.ValueIdx

/-!
# A two-layer mean-aggregating graph convolution with a three-layer head, on rows of extended reals

Every dense part of the network acts row by row: row `r` of the result is a function of row `r` of the inputs.
So each part is defined on ONE row (`sageRow`, `dense`, `headRow`) and an array is assembled from its rows
(`ofRows`); the same definition then serves a tile of rows and the whole array.

* `sageRow v h ws wn b` is `v · ws + h · wn + b`: a node's own features and its neighbourhood mean, each through its
  own weight matrix;
* `meanDiv s d` divides row `r` of the neighbourhood sums `s` by `d[r]`; `meanMul s e` multiplies it by `e[r]`; with
  `e = recip d` and `d` nowhere zero the two agree (`meanMul_recip`): `s · (1 / d) = s / d`;
* the aggregation itself (which rows are summed into which) enters as an arbitrary function `A` of the feature array.
-/

noncomputable section

namespace Cert.Sage

open Idealize.ShloMosaic Idealize.ShloMosaic.ValueIdx Cert.LibDense

/-! ## Rows -/

/-- Row `r` of a matrix. -/
def rowOf {M K : Nat} (x : Mat M K) (r : Fin M) : Fin K → EReal := fun k => x (ix2 r k)

/-- The matrix whose row `r` is `f r`. -/
def ofRows {M N : Nat} (f : Fin M → Fin N → EReal) : Mat M N := fun i => f (i 0) (i 1)

theorem ofRows_apply {M N : Nat} (f : Fin M → Fin N → EReal) (r : Fin M) (q : Fin N) : ofRows f (ix2 r q) = f r q := rfl

theorem rowOf_ofRows {M N : Nat} (f : Fin M → Fin N → EReal) (r : Fin M) : rowOf (ofRows f) r = f r := rfl

/-- The one row of a `1 × N` array, as a vector. -/
def rowVec {N : Nat} (b : Mat 1 N) : Row N := fun i => b (ix2 0 (i 0))

/-! ## The layers on one row -/

/-- `v · w + b`. -/
def dense {K N : Nat} (v : Fin K → EReal) (w : Mat K N) (b : Row N) : Fin N → EReal :=
  fun q => (∑ k : Fin K, v k * w (ix2 k q)) + b (ix1 q)

/-- `v · ws + h · wn + b`: the node's row through `ws`, its neighbourhood's through `wn`. -/
def sageRow {K N : Nat} (v h : Fin K → EReal) (ws wn : Mat K N) (b : Row N) : Fin N → EReal :=
  fun q => (∑ k : Fin K, v k * ws (ix2 k q)) + (∑ k : Fin K, h k * wn (ix2 k q)) + b (ix1 q)

/-- `max · 0` entry by entry. -/
def reluV {n : Nat} (v : Fin n → EReal) : Fin n → EReal := fun q => max (v q) 0

/-- The head: three dense layers, `relu` after the first two. -/
def headRow (e : Fin 128 → EReal) (wl1 : Mat 128 64) (bl1 : Row 64) (wl2 : Mat 64 32) (bl2 : Row 32)
    (wl3 : Mat 32 10) (bl3 : Row 10) : Fin 10 → EReal :=
  dense (reluV (dense (reluV (dense e wl1 bl1)) wl2 bl2)) wl3 bl3

/-! ## The layers on arrays of any number of rows -/

/-- The first convolution: `relu (x · ws + h · wn + b)`. -/
def layer1 {M : Nat} (x h : Mat M 64) (ws wn : Mat 64 256) (b : Row 256) : Mat M 256 :=
  ofRows fun r => reluV (sageRow (rowOf x r) (rowOf h r) ws wn b)

/-- The second convolution: `x · ws + h · wn + b`. -/
def layer2 {M : Nat} (x h : Mat M 256) (ws wn : Mat 256 128) (b : Row 128) : Mat M 128 :=
  ofRows fun r => sageRow (rowOf x r) (rowOf h r) ws wn b

/-- The head on every row. -/
def head {M : Nat} (e : Mat M 128) (wl1 : Mat 128 64) (bl1 : Row 64) (wl2 : Mat 64 32) (bl2 : Row 32)
    (wl3 : Mat 32 10) (bl3 : Row 10) : Mat M 10 :=
  ofRows fun r => headRow (rowOf e r) wl1 bl1 wl2 bl2 wl3 bl3

/-! ## The neighbourhood mean, two ways -/

/-- Row `r` of `s` divided by `d[r]`. -/
def meanDiv {M K : Nat} (s : Mat M K) (d : Row M) : Mat M K := fun i => Ideal.div (s i) (d (ix1 (i 0)))

/-- Row `r` of `s` multiplied by `e[r]`. -/
def meanMul {M K : Nat} (s : Mat M K) (e : Row M) : Mat M K := fun i => s i * e (ix1 (i 0))

/-- `1 / d` entry by entry. -/
def recip {M : Nat} (d : Row M) : Row M := fun i => Ideal.div 1 (d i)

/-- Off zero, `a · (1 / y) = a / y` on the extended reals: both are `a · y⁻¹`. -/
theorem mul_div_one (a y : EReal) (hy : y ≠ 0) : a * Ideal.div 1 y = Ideal.div a y := by
  unfold Ideal.div
  rw [if_neg hy, if_neg hy, one_mul]

/-- Multiplying by the reciprocal of a nowhere-zero vector is dividing by it. -/
theorem meanMul_recip {M K : Nat} (s : Mat M K) (d : Row M) (hd : ∀ i, d i ≠ 0) : meanMul s (recip d) = meanDiv s d :=
  funext fun i => mul_div_one (s i) (d (ix1 (i 0))) (hd _)

/-! ## The network -/

section Net

variable {M : Nat} (A1 : Mat M 64 → Mat M 64) (A2 : Mat M 256 → Mat M 256) (d : Row M)
  (x : Mat M 64) (w1s w1n : Mat 64 256) (b1 : Row 256) (w2s w2n : Mat 256 128) (b2 : Row 128)
  (wl1 : Mat 128 64) (bl1 : Row 64) (wl2 : Mat 64 32) (bl2 : Row 32) (wl3 : Mat 32 10) (bl3 : Row 10)

/-- The hidden features: the first convolution of `x` with its neighbourhood mean `A1 x / d`. -/
def netX1 : Mat M 256 := layer1 x (meanDiv (A1 x) d) w1s w1n b1

/-- The embeddings: the second convolution of the hidden features with their neighbourhood mean. -/
def netEmb : Mat M 128 :=
  layer2 (netX1 A1 d x w1s w1n b1) (meanDiv (A2 (netX1 A1 d x w1s w1n b1)) d) w2s w2n b2

/-- The scores: the head on the embeddings. -/
def netOut : Mat M 10 :=
  head (netEmb A1 A2 d x w1s w1n b1 w2s w2n b2) wl1 bl1 wl2 bl2 wl3 bl3

end Net

end Cert.Sage

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«152002_j20469814132750_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.Region0.lean ====
import proofs.«152002_j20469814132750_1_alg».proof.Proof.Gen.KernelIdeal.Frame
import proofs.«152002_j20469814132750_1_alg».proof.Proof.Spec
import proofs.«152002_j20469814132750_1_alg».proof.Proof.LibContract
import proofs.«152002_j20469814132750_1_alg».proof.Proof.LibLayout
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.LibDense

variable (V : (c : Dev nD) → (b : Ref sig .tc) → Buf (Elt Ideal) ((c : Thread nD τ).loc b))

/-! ## The tile's payload at an entry -/

/-- The bias row, cast to its own shape and broadcast down the tile's rows, read at (p, q): the bias at column q. -/
private theorem bias0_apply (x4 : Vec Ideal S1x256 .f32) (p : Fin 2000) (q : Fin 256) :
    broadcastTo S2000x256 (shapeCast S1x256 x4 shapeCasts_S1x256_S1x256) broadcasts_S1x256_S2000x256 (ix2 p q)
      = Sage.rowVec x4 (ix1 q) := by
  rw [shapeCast_self]
  -- the broadcast reads the one row at (0, q): axis 0 is a unit axis, axis 1 keeps the column
  refine broadcastTo_apply x4 broadcasts_S1x256_S2000x256 (ix2 p q) (ix2 (0 : Fin 1) q) ?_
  intro a
  match a with
  | ⟨0, _⟩ => rfl
  | ⟨1, _⟩ => rfl

/-- The payload at (p, q): max (x0[p, ·] · x2[·, q] + x1[p, ·] · x3[·, q] + x4[q]) 0. On the extended reals the
    narrowing of the operands is the identity, each product into the zero array is the plain sum over the 64 shared
    coordinates, and the zero scalar is 0. -/
private theorem pay0_apply (x0 x1 : Vec Ideal S2000x64 .f32) (x2 x3 : Vec Ideal S64x256 .f32) (x4 : Vec Ideal S1x256 .f32)
    (p : Fin 2000) (q : Fin 256) :
    k0_pay1 x0 x1 x2 x3 x4 (ix2 p q)
      = Sage.reluV (Sage.sageRow (Sage.rowOf x0 p) (Sage.rowOf x1 p) x2 x3 (Sage.rowVec x4)) q := by
  unfold k0_pay1
  rw [maximumf_apply, addf_apply, addf_apply, bias0_apply, broadcast_apply, shapeCast_self]
  -- the printed contraction record is the plain one: contract the left axis 1 with the right axis 0, no batch axes
  show max (matmul (DotDims.plain 2000 64 256) none (truncf FTy.bf16 x0 bitsLt_bf16_f32) (truncf FTy.bf16 x2 bitsLt_bf16_f32)
        (constant (F := Ideal) (⟨2, ![2000, 256]⟩ : Shape) .f32 0x00000000#32) (ix2 p q)
      + matmul (DotDims.plain 2000 64 256) none (truncf FTy.bf16 x1 bitsLt_bf16_f32) (truncf FTy.bf16 x3 bitsLt_bf16_f32)
        (constant (F := Ideal) (⟨2, ![2000, 256]⟩ : Shape) .f32 0x00000000#32) (ix2 p q)
      + Sage.rowVec x4 (ix1 q)) (Ideal.ofBits .f32 0x00000000#32) = _
  rw [matmul_plain_zero_apply, matmul_plain_zero_apply, Ideal.ofBits_zero_f32]
  rfl

/-- A tile entry against the whole-array layer: when row p of each row-blocked input is row (i 0) of its array, the
    weights and the bias are the arrays themselves, and the column is the same, the payload at (p, q) is the first
    convolution at i. -/
private theorem tile0_at (A0 A1 : Mat 50000 64) (A2 A3 : Mat 64 256) (A4 : Mat 1 256)
    (x0 x1 : Vec Ideal S2000x64 .f32) (x2 x3 : Vec Ideal S64x256 .f32) (x4 : Vec Ideal S1x256 .f32)
    (p : Fin 2000) (q : Fin 256) (i : (⟨2, ![50000, 256]⟩ : Shape).Idx)
    (h0 : Sage.rowOf x0 p = Sage.rowOf A0 (i 0)) (h1 : Sage.rowOf x1 p = Sage.rowOf A1 (i 0))
    (h2 : x2 = A2) (h3 : x3 = A3) (h4 : x4 = A4) (hq : q = i 1) :
    k0_pay1 x0 x1 x2 x3 x4 (ix2 p q) = Sage.layer1 A0 A1 A2 A3 (Sage.rowVec A4) i := by
  rw [pay0_apply, h0, h1, h2, h3, h4, hq]
  rfl

/-! ## The index maps over the grid -/

/-- The zero offsets of a whole-tile access, as a constant function. -/
private theorem zeroOff0 : (![0, 0] : Fin 2 → Nat) = fun _ => 0 := funext fun a => by fin_cases a <;> rfl

/-- The index maps, decided over the 25 grid points: the two row-blocked inputs move with the output's row block, in
    column block 0; the weights and the bias stay at block (0, 0); the output's row block is below 25 and its column
    block is 0. -/
private theorem idx0_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every row block of the output is some point's. -/
private theorem idx0_onto : ∀ (b : Fin 25), ∃ t : Fin cfg0.N, win0_5.index t = ![b.val, 0] :=
  (by decide +kernel : ∀ (b : Fin 25), ∃ t : Fin grid0.N, win0_5.index t = ![b.val, 0])

/-! ## The input blocks at a point

A block's element at coordinate y sits in the array, on each axis, at block index × block size + 1 × y. -/

/-- The self weights' window holds the whole array at every point. -/
private theorem selfW0_eq (c : Dev nD) (t : Fin cfg0.N) : iblk0 V c 2 t = V c main_arg4 := by
  obtain ⟨-, -, -, -, e20, e21, -, -, -, -, -, -⟩ := idx0_facts t
  funext i
  show V c main_arg4 (((cfg0.win 2).blk t).view.emb i) = V c main_arg4 i
  refine congrArg _ ?_
  funext a; apply Fin.ext
  match a with
  | ⟨0, _⟩ => show win0_2.index t (0 : Fin 2) * 64 + 1 * (i 0).val = (i 0).val; omega
  | ⟨1, _⟩ => show win0_2.index t (1 : Fin 2) * 256 + 1 * (i 1).val = (i 1).val; omega

/-- The neighbour weights' window holds the whole array at every point. -/
private theorem nbrW0_eq (c : Dev nD) (t : Fin cfg0.N) : iblk0 V c 3 t = V c main_arg5 := by
  obtain ⟨-, -, -, -, -, -, e30, e31, -, -, -, -⟩ := idx0_facts t
  funext i
  show V c main_arg5 (((cfg0.win 3).blk t).view.emb i) = V c main_arg5 i
  refine congrArg _ ?_
  funext a; apply Fin.ext
  match a with
  | ⟨0, _⟩ => show win0_3.index t (0 : Fin 2) * 64 + 1 * (i 0).val = (i 0).val; omega
  | ⟨1, _⟩ => show win0_3.index t (1 : Fin 2) * 256 + 1 * (i 1).val = (i 1).val; omega

/-- The bias window holds the whole one-row array at every point. -/
private theorem biasW0_eq (c : Dev nD) (t : Fin cfg0.N) : iblk0 V c 4 t = V c main_v23 := by
  obtain ⟨-, -, -, -, -, -, -, -, e40, e41, -, -⟩ := idx0_facts t
  funext i
  show V c main_v23 (((cfg0.win 4).blk t).view.emb i) = V c main_v23 i
  refine congrArg _ ?_
  funext a; apply Fin.ext
  match a with
  | ⟨0, _⟩ => show win0_4.index t (0 : Fin 2) * 1 + 1 * (i 0).val = (i 0).val; omega
  | ⟨1, _⟩ => show win0_4.index t (1 : Fin 2) * 256 + 1 * (i 1).val = (i 1).val; omega

/-! ## What a point writes back, and the cover -/

/-- What point t writes back is block t of the first convolution of the arrays as the region finds them: row p of the
    tile depends on row (row block × 2000 + p) of the two feature arrays, and on the weights and the bias whole. -/
private theorem flushed0_eq (c : Dev nD) (t : Fin cfg0.N) :
    (dat0 (F := Ideal) V c).flushed 5 t = ((cfg0.win 5).blk t).view.read (Elt Ideal)
      (Sage.layer1 (V c main_arg0) (V c main_v22) (V c main_arg4) (V c main_arg5) (Sage.rowVec (V c main_v23))) := by
  show (cfg0.win 5).cut (grid0.coords t) ((dat0 V c).after 5 t) = _
  rw [after0_5]
  unfold out0_5
  -- the one whole-tile store leaves its payload; each whole-tile load reads its block
  rw [View.canon_unit_zero zeroOff0]
  simp only [View.ld_unit_zero (S := S2000x64) zeroOff0, View.ld_unit_zero (S := S64x256) zeroOff0,
    View.ld_unit_zero (S := S1x256) zeroOff0]
  rw [selfW0_eq, nbrW0_eq, biasW0_eq]
  funext j
  obtain ⟨e00, e01, e10, e11, -, -, -, -, -, -, e50, e51⟩ := idx0_facts t
  have hj0 : (j 0).val < 2000 := (j 0).isLt
  have hj1 : (j 1).val < 256 := (j 1).isLt
  -- the tile index, coordinate by coordinate
  have hx : (win0 5).xinj (grid0.coords t) j = ix2 (⟨(j 0).val, hj0⟩ : Fin 2000) (⟨(j 1).val, hj1⟩ : Fin 256) := by
    funext a; apply Fin.ext
    match a with
    | ⟨0, _⟩ => rfl
    | ⟨1, _⟩ => rfl
  show k0_pay1 (iblk0 V c 0 t) (iblk0 V c 1 t) (V c main_arg4) (V c main_arg5) (V c main_v23) ((win0 5).xinj (grid0.coords t) j)
      = Sage.layer1 (V c main_arg0) (V c main_v22) (V c main_arg4) (V c main_arg5) (Sage.rowVec (V c main_v23))
          (((cfg0.win 5).blk t).view.emb j)
  rw [hx]
  refine tile0_at _ _ _ _ _ _ _ _ _ _ _ _ _ ?_ ?_ rfl rfl rfl ?_
  -- row p of the node features' block is row (row block × 2000 + p) of the array: its window has the output's row block
  · funext k
    show V c main_arg0 (((cfg0.win 0).blk t).view.emb (ix2 ⟨(j 0).val, hj0⟩ k))
        = V c main_arg0 (ix2 ((((cfg0.win 5).blk t).view.emb j) 0) k)
    refine congrArg _ ?_
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 64 + 1 * k.val = k.val; omega
  -- the same for the neighbourhood means' block
  · funext k
    show V c main_v22 (((cfg0.win 1).blk t).view.emb (ix2 ⟨(j 0).val, hj0⟩ k))
        = V c main_v22 (ix2 ((((cfg0.win 5).blk t).view.emb j) 0) k)
    refine congrArg _ ?_
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 64 + 1 * k.val = k.val; omega
  -- the output's column block is 0: the array's column is the tile's
  · apply Fin.ext
    show (j 1).val = win0_5.index t (1 : Fin 2) * 256 + 1 * (j 1).val
    omega

/-- An index of the output array is in point t's block iff each coordinate is in the block's range on its axis. -/
private theorem mem0_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v24).slice (win0_5.rect t)).set ↔ _
  rw [View.set_slice_whole, Rect.mem_set_unit]
  exact Iff.rfl

/-- The 25 row blocks of 2000 tile the 50000 rows: row r is in the block of the point whose row block is r / 2000. -/
private theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx0_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem0_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The first region's output array after its run: the first convolution of the two input arrays, row by row. -/
theorem arr0_5 (c : Dev nD) :
    (dat0 (F := Ideal) V c).arrAt 5 cfg0.N
      = Sage.layer1 (V c main_arg0) (V c main_v22) (V c main_arg4) (V c main_arg5) (Sage.rowVec (V c main_v23)) :=
  -- every point writes back its block of the layer, and the blocks cover the array
  (dat0 V c).arrAt_eq_of_cover 5 _ (fun t _ => flushed0_eq V c t) cover0

end Cert.KernelIdeal.Hand

end
-- ==== Proof.Region1.lean ====
import proofs.«152002_j20469814132750_1_alg».proof.Proof.Gen.KernelIdeal.Frame
import proofs.«152002_j20469814132750_1_alg».proof.Proof.Spec
import proofs.«152002_j20469814132750_1_alg».proof.Proof.LibContract
import proofs.«152002_j20469814132750_1_alg».proof.Proof.LibLayout
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.LibDense

/-! ## The layers in a kernel's spelling, read at an entry

A kernel spells a dense layer on a tile of `M` rows as: both operands narrowed (the identity on extended reals), their
product into the zero constant, plus the `1 × N` bias (through an identity shape cast) broadcast along the rows.
At entry `(p, q)` that is `∑ k, a[p, k] · w[k, q] + b[0, q]`: the dense layer on row `p`. -/

/-- The bias of a kernel: a `1 × N` array broadcast along the rows reads `b[0, q]` at `(p, q)`. -/
private theorem rowBias_apply {α : Type} (M N : Nat) (hb : (⟨2, ![1, N]⟩ : Shape).Broadcasts ⟨2, ![M, N]⟩)
    (b : (⟨2, ![1, N]⟩ : Shape).Idx → α) (p : Fin M) (q : Fin N) :
    broadcastTo ⟨2, ![M, N]⟩ b hb (ix2 p q) = b (ix2 (0 : Fin 1) q) := by
  have hq := q.isLt
  -- the broadcast reads the row at (0, q): axis 0 of the row is a unit axis, axis 1 keeps the column
  refine broadcastTo_apply b hb (ix2 p q) (ix2 (0 : Fin 1) q) ?_
  intro a
  match a with
  | ⟨0, _⟩ => exact (if_pos rfl).symm
  | ⟨1, _⟩ =>
    show q.val = if N = 1 then 0 else q.val
    split
    · omega
    · rfl

/-- A kernel's dense layer at entry `(p, q)`: the dense layer on row `p`. -/
private theorem kdense_apply (M K N : Nat) (h1 h2 : FTy.bf16.bits < FTy.f32.bits)
    (hb : (⟨2, ![1, N]⟩ : Shape).Broadcasts ⟨2, ![M, N]⟩)
    (a : FVec Ideal ⟨2, ![M, K]⟩ .f32) (w : FVec Ideal ⟨2, ![K, N]⟩ .f32) (b : FVec Ideal ⟨2, ![1, N]⟩ .f32)
    (p : Fin M) (q : Fin N) :
    addf (matmul (DotDims.plain M K N) none (truncf .bf16 a h1) (truncf .bf16 w h2)
        (constant (F := Ideal) (⟨2, ![M, N]⟩ : Shape) .f32 0x00000000#32))
      (broadcastTo ⟨2, ![M, N]⟩ b hb) (ix2 p q)
      = Sage.dense (Sage.rowOf a p) w (Sage.rowVec b) q := by
  rw [addf_apply, matmul_plain_zero_apply, rowBias_apply]
  rfl

/-- So row `p` of a kernel's dense layer is the dense layer on row `p`. -/
private theorem kdense_row (M K N : Nat) (h1 h2 : FTy.bf16.bits < FTy.f32.bits)
    (hb : (⟨2, ![1, N]⟩ : Shape).Broadcasts ⟨2, ![M, N]⟩)
    (a : FVec Ideal ⟨2, ![M, K]⟩ .f32) (w : FVec Ideal ⟨2, ![K, N]⟩ .f32) (b : FVec Ideal ⟨2, ![1, N]⟩ .f32)
    (p : Fin M) :
    Sage.rowOf (addf (matmul (DotDims.plain M K N) none (truncf .bf16 a h1) (truncf .bf16 w h2)
        (constant (F := Ideal) (⟨2, ![M, N]⟩ : Shape) .f32 0x00000000#32))
      (broadcastTo ⟨2, ![M, N]⟩ b hb)) p
      = Sage.dense (Sage.rowOf a p) w (Sage.rowVec b) :=
  funext fun q => kdense_apply M K N h1 h2 hb a w b p q

/-- Row `p` of a kernel's `max · 0` against the broadcast zero scalar is `max · 0` of row `p`. -/
private theorem krelu_row (M N : Nat) (x : FVec Ideal ⟨2, ![M, N]⟩ .f32) (p : Fin M) :
    Sage.rowOf (maximumf x (broadcast ⟨2, ![M, N]⟩ (Scalar.ofBits (F := Ideal) .f32 0x00000000#32))) p
      = Sage.reluV (Sage.rowOf x p) :=
  funext fun q => congrFun (kernRelu_eq x) (ix2 p q)

/-! ## The two payloads of the second region, at an entry of the tile -/

/-- The first stored value at entry `(p, q)`: the second convolution on row `p` of the two input tiles. -/
private theorem conv2_tile_apply (x0 x1 : Vec Ideal S2000x256 .f32) (x2 x3 : Vec Ideal S256x128 .f32) (x4 : Vec Ideal S1x128 .f32)
    (p : Fin 2000) (q : Fin 128) :
    k1_pay2 x0 x1 x2 x3 x4 (ix2 p q)
      = Sage.sageRow (Sage.rowOf x0 p) (Sage.rowOf x1 p) x2 x3 (Sage.rowVec x4) q := by
  unfold k1_pay2
  simp only [shapeCast_self]
  rw [show dot_S2000x256_S256x128_S2000x128_1_0_0_1_n_n = DotDims.plain 2000 256 128 from rfl]
  rw [addf_apply, addf_apply, matmul_plain_zero_apply, matmul_plain_zero_apply, rowBias_apply]
  rfl

/-- Row `p` of the first stored value. -/
private theorem conv2_tile_row (x0 x1 : Vec Ideal S2000x256 .f32) (x2 x3 : Vec Ideal S256x128 .f32) (x4 : Vec Ideal S1x128 .f32)
    (p : Fin 2000) :
    Sage.rowOf (k1_pay2 x0 x1 x2 x3 x4) p
      = Sage.sageRow (Sage.rowOf x0 p) (Sage.rowOf x1 p) x2 x3 (Sage.rowVec x4) :=
  funext fun q => conv2_tile_apply x0 x1 x2 x3 x4 p q

/-- The second stored value at entry `(p, q)`: the head on row `p` of the second convolution. Its three dense
    layers are read one at a time, from the last one inwards. -/
private theorem head_tile_apply (x0 x1 : Vec Ideal S2000x256 .f32) (x2 x3 : Vec Ideal S256x128 .f32) (x4 : Vec Ideal S1x128 .f32)
    (x5 : Vec Ideal S128x64 .f32) (x6 : Vec Ideal S1x64 .f32) (x7 : Vec Ideal S64x32 .f32) (x8 : Vec Ideal S1x32 .f32)
    (x9 : Vec Ideal S32x10 .f32) (x10 : Vec Ideal S1x10 .f32) (p : Fin 2000) (q : Fin 10) :
    k1_pay1 (k1_pay3 x0 x1 x2 x3 x4 x5 x6 x7) x8 x9 x10 (ix2 p q)
      = Sage.headRow (Sage.sageRow (Sage.rowOf x0 p) (Sage.rowOf x1 p) x2 x3 (Sage.rowVec x4))
          x5 (Sage.rowVec x6) x7 (Sage.rowVec x8) x9 (Sage.rowVec x10) q := by
  rw [← conv2_tile_row x0 x1 x2 x3 x4 p]
  unfold k1_pay1 k1_pay3
  generalize k1_pay2 x0 x1 x2 x3 x4 = E
  simp only [shapeCast_self]
  rw [show dot_S2000x128_S128x64_S2000x64_1_0_0_1_n_n = DotDims.plain 2000 128 64 from rfl,
    show dot_S2000x64_S64x32_S2000x32_1_0_0_1_n_n = DotDims.plain 2000 64 32 from rfl,
    show dot_S2000x32_S32x10_S2000x10_1_0_0_1_n_n = DotDims.plain 2000 32 10 from rfl]
  rw [kdense_apply, krelu_row, kdense_row, krelu_row, kdense_row]
  rfl

variable (V : (c : Dev nD) → (b : Ref sig .tc) → Buf (Elt Ideal) ((c : Thread nD τ).loc b))

/-! ## What a grid point reads

Grid point `t` (of 25) reads rows `2000 t … 2000 t + 1999` of the two row-tiled inputs and the nine small arrays
whole, and writes rows `2000 t … 2000 t + 1999` of the two outputs. A block's coordinate in its array is the block
index times the block's size plus the coordinate inside the block. -/

private theorem zero_offsets : (![0, 0] : Fin 2 → Nat) = fun _ => 0 := funext fun a => by fin_cases a <;> rfl

/-- The printed index maps, decided over the 25 grid points: the row-tiled windows (0, 1, 11, 12) are at row block `t`,
    column block 0; the other windows are at block (0, 0). -/
private theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0)
    ∧ (win1_12.index t (0 : Fin 2) = t.val ∧ win1_12.index t (1 : Fin 2) = 0) :=
  (by decide +kernel : ∀ t : Fin grid1.N, _)

/-- The grid has 25 points. -/
private theorem grid_points : cfg1.N = 25 := rfl

/-- Row `p` of window 0's tile at point `t` is row `2000 t + p` of its array. -/
private theorem tile0_row (c : Dev nD) (t : Fin cfg1.N) (p : Fin 2000) (hr : t.val * 2000 + p.val < 50000) :
    Sage.rowOf (iblk1 V c 0 t : Mat 2000 256) p = Sage.rowOf (V c main_v24) ⟨t.val * 2000 + p.val, hr⟩ := by
  obtain ⟨⟨e0, e1⟩, -, -, -, -, -, -, -, -, -, -, -, -⟩ := block_indices t
  funext k
  show V c main_v24 (((cfg1.win 0).blk t).view.emb (ix2 p k)) = V c main_v24 (ix2 (⟨t.val * 2000 + p.val, hr⟩ : Fin 50000) k)
  congr 1
  funext d; apply Fin.ext
  match d with
  | ⟨0, _⟩ => show win1_0.index t (0 : Fin 2) * 2000 + 1 * p.val = t.val * 2000 + p.val; omega
  | ⟨1, _⟩ => show win1_0.index t (1 : Fin 2) * 256 + 1 * k.val = k.val; omega

/-- Row `p` of window 1's tile at point `t` is row `2000 t + p` of its array. -/
private theorem tile1_row (c : Dev nD) (t : Fin cfg1.N) (p : Fin 2000) (hr : t.val * 2000 + p.val < 50000) :
    Sage.rowOf (iblk1 V c 1 t : Mat 2000 256) p = Sage.rowOf (V c main_v40) ⟨t.val * 2000 + p.val, hr⟩ := by
  obtain ⟨-, ⟨e0, e1⟩, -, -, -, -, -, -, -, -, -, -, -⟩ := block_indices t
  funext k
  show V c main_v40 (((cfg1.win 1).blk t).view.emb (ix2 p k)) = V c main_v40 (ix2 (⟨t.val * 2000 + p.val, hr⟩ : Fin 50000) k)
  congr 1
  funext d; apply Fin.ext
  match d with
  | ⟨0, _⟩ => show win1_1.index t (0 : Fin 2) * 2000 + 1 * p.val = t.val * 2000 + p.val; omega
  | ⟨1, _⟩ => show win1_1.index t (1 : Fin 2) * 256 + 1 * k.val = k.val; omega

/-- Window 2 is its whole array at every point: its one block is at (0, 0). -/
private theorem whole2 (c : Dev nD) (t : Fin cfg1.N) : (iblk1 V c 2 t : Mat 256 128) = V c main_arg7 := by
  obtain ⟨-, -, ⟨e0, e1⟩, -, -, -, -, -, -, -, -, -, -⟩ := block_indices t
  funext y
  show V c main_arg7 (((cfg1.win 2).blk t).view.emb y) = V c main_arg7 y
  congr 1
  funext d; apply Fin.ext
  match d with
  | ⟨0, _⟩ => show win1_2.index t (0 : Fin 2) * 256 + 1 * (y 0).val = (y 0).val; omega
  | ⟨1, _⟩ => show win1_2.index t (1 : Fin 2) * 128 + 1 * (y 1).val = (y 1).val; omega

/-- Window 3 is its whole array at every point: its one block is at (0, 0). -/
private theorem whole3 (c : Dev nD) (t : Fin cfg1.N) : (iblk1 V c 3 t : Mat 256 128) = V c main_arg8 := by
  obtain ⟨-, -, -, ⟨e0, e1⟩, -, -, -, -, -, -, -, -, -⟩ := block_indices t
  funext y
  show V c main_arg8 (((cfg1.win 3).blk t).view.emb y) = V c main_arg8 y
  congr 1
  funext d; apply Fin.ext
  match d with
  | ⟨0, _⟩ => show win1_3.index t (0 : Fin 2) * 256 + 1 * (y 0).val = (y 0).val; omega
  | ⟨1, _⟩ => show win1_3.index t (1 : Fin 2) * 128 + 1 * (y 1).val = (y 1).val; omega

/-- Window 4 is its whole array at every point: its one block is at (0, 0). -/
private theorem whole4 (c : Dev nD) (t : Fin cfg1.N) : (iblk1 V c 4 t : Mat 1 128) = V c main_v41 := by
  obtain ⟨-, -, -, -, ⟨e0, e1⟩, -, -, -, -, -, -, -, -⟩ := block_indices t
  funext y
  show V c main_v41 (((cfg1.win 4).blk t).view.emb y) = V c main_v41 y
  congr 1
  funext d; apply Fin.ext
  match d with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 is its whole array at every point: its one block is at (0, 0). -/
private theorem whole5 (c : Dev nD) (t : Fin cfg1.N) : (iblk1 V c 5 t : Mat 128 64) = V c main_arg10 := by
  obtain ⟨-, -, -, -, -, ⟨e0, e1⟩, -, -, -, -, -, -, -⟩ := block_indices t
  funext y
  show V c main_arg10 (((cfg1.win 5).blk t).view.emb y) = V c main_arg10 y
  congr 1
  funext d; apply Fin.ext
  match d with
  | ⟨0, _⟩ => show win1_5.index t (0 : Fin 2) * 128 + 1 * (y 0).val = (y 0).val; omega
  | ⟨1, _⟩ => show win1_5.index t (1 : Fin 2) * 64 + 1 * (y 1).val = (y 1).val; omega

/-- Window 6 is its whole array at every point: its one block is at (0, 0). -/
private theorem whole6 (c : Dev nD) (t : Fin cfg1.N) : (iblk1 V c 6 t : Mat 1 64) = V c main_v42 := by
  obtain ⟨-, -, -, -, -, -, ⟨e0, e1⟩, -, -, -, -, -, -⟩ := block_indices t
  funext y
  show V c main_v42 (((cfg1.win 6).blk t).view.emb y) = V c main_v42 y
  congr 1
  funext d; apply Fin.ext
  match d with
  | ⟨0, _⟩ => show win1_6.index t (0 : Fin 2) * 1 + 1 * (y 0).val = (y 0).val; omega
  | ⟨1, _⟩ => show win1_6.index t (1 : Fin 2) * 64 + 1 * (y 1).val = (y 1).val; omega

/-- Window 7 is its whole array at every point: its one block is at (0, 0). -/
private theorem whole7 (c : Dev nD) (t : Fin cfg1.N) : (iblk1 V c 7 t : Mat 64 32) = V c main_arg12 := by
  obtain ⟨-, -, -, -, -, -, -, ⟨e0, e1⟩, -, -, -, -, -⟩ := block_indices t
  funext y
  show V c main_arg12 (((cfg1.win 7).blk t).view.emb y) = V c main_arg12 y
  congr 1
  funext d; apply Fin.ext
  match d with
  | ⟨0, _⟩ => show win1_7.index t (0 : Fin 2) * 64 + 1 * (y 0).val = (y 0).val; omega
  | ⟨1, _⟩ => show win1_7.index t (1 : Fin 2) * 32 + 1 * (y 1).val = (y 1).val; omega

/-- Window 8 is its whole array at every point: its one block is at (0, 0). -/
private theorem whole8 (c : Dev nD) (t : Fin cfg1.N) : (iblk1 V c 8 t : Mat 1 32) = V c main_v43 := by
  obtain ⟨-, -, -, -, -, -, -, -, ⟨e0, e1⟩, -, -, -, -⟩ := block_indices t
  funext y
  show V c main_v43 (((cfg1.win 8).blk t).view.emb y) = V c main_v43 y
  congr 1
  funext d; apply Fin.ext
  match d with
  | ⟨0, _⟩ => show win1_8.index t (0 : Fin 2) * 1 + 1 * (y 0).val = (y 0).val; omega
  | ⟨1, _⟩ => show win1_8.index t (1 : Fin 2) * 32 + 1 * (y 1).val = (y 1).val; omega

/-- Window 9 is its whole array at every point: its one block is at (0, 0). -/
private theorem whole9 (c : Dev nD) (t : Fin cfg1.N) : (iblk1 V c 9 t : Mat 32 10) = V c main_arg14 := by
  obtain ⟨-, -, -, -, -, -, -, -, -, ⟨e0, e1⟩, -, -, -⟩ := block_indices t
  funext y
  show V c main_arg14 (((cfg1.win 9).blk t).view.emb y) = V c main_arg14 y
  congr 1
  funext d; apply Fin.ext
  match d with
  | ⟨0, _⟩ => show win1_9.index t (0 : Fin 2) * 32 + 1 * (y 0).val = (y 0).val; omega
  | ⟨1, _⟩ => show win1_9.index t (1 : Fin 2) * 10 + 1 * (y 1).val = (y 1).val; omega

/-- Window 10 is its whole array at every point: its one block is at (0, 0). -/
private theorem whole10 (c : Dev nD) (t : Fin cfg1.N) : (iblk1 V c 10 t : Mat 1 10) = V c main_v44 := by
  obtain ⟨-, -, -, -, -, -, -, -, -, -, ⟨e0, e1⟩, -, -⟩ := block_indices t
  funext y
  show V c main_v44 (((cfg1.win 10).blk t).view.emb y) = V c main_v44 y
  congr 1
  funext d; apply Fin.ext
  match d with
  | ⟨0, _⟩ => show win1_10.index t (0 : Fin 2) * 1 + 1 * (y 0).val = (y 0).val; omega
  | ⟨1, _⟩ => show win1_10.index t (1 : Fin 2) * 10 + 1 * (y 1).val = (y 1).val; omega

/-! ## What a grid point writes back

Point `t` writes back, at entry `(p, q)` of its tile, the payload at `(p, q)` of the blocks it read: the layer on row
`p` of the two input tiles, which are rows `2000 t + p` of the two input arrays. That is entry `(2000 t + p, q)` of the
whole-array function of the arrays. -/

/-- What point `t` writes back to the first output is block `t` of the second convolution of the input arrays. -/
private theorem conv2_written (c : Dev nD) (t : Fin cfg1.N) :
    (dat1 (F := Ideal) V c).flushed 11 t
      = ((cfg1.win 11).blk t).view.read (Elt Ideal) (Sage.layer2 (V c main_v24) (V c main_v40) (V c main_arg7) (V c main_arg8) (Sage.rowVec (V c main_v41))) := by
  show (cfg1.win 11).cut (grid1.coords t) ((dat1 V c).after 11 t) = _
  rw [after1_11]
  unfold out1_11
  rw [View.canon_unit_zero zero_offsets]
  simp only [View.ld_unit_zero (S := S2000x256) zero_offsets, View.ld_unit_zero (S := S256x128) zero_offsets, View.ld_unit_zero (S := S1x128) zero_offsets]
  obtain ⟨-, -, -, -, -, -, -, -, -, -, -, ⟨e0, e1⟩, -⟩ := block_indices t
  have ht : t.val < 25 := t.isLt
  funext j
  have hj0 : (j 0).val < 2000 := (j 0).isLt
  have hj1 : (j 1).val < 128 := (j 1).isLt
  have hr : t.val * 2000 + (j 0).val < 50000 := by omega
  -- the left side is the payload at entry (j 0, j 1) of the tile
  trans k1_pay2 (iblk1 V c 0 t) (iblk1 V c 1 t) (iblk1 V c 2 t) (iblk1 V c 3 t) (iblk1 V c 4 t)
      (ix2 (⟨(j 0).val, hj0⟩ : Fin 2000) (⟨(j 1).val, hj1⟩ : Fin 128))
  · exact congrArg _ (funext fun a => match a with | ⟨0, _⟩ => rfl | ⟨1, _⟩ => rfl)
  -- the right side is the array function at entry (2000 t + j 0, j 1)
  have eR : ((cfg1.win 11).blk t).view.emb j
      = ix2 (⟨t.val * 2000 + (j 0).val, hr⟩ : Fin 50000) (⟨(j 1).val, hj1⟩ : Fin 128) := by
    funext a; apply Fin.ext
    match a with
    | ⟨0, _⟩ => show win1_11.index t (0 : Fin 2) * 2000 + 1 * (j 0).val = t.val * 2000 + (j 0).val; omega
    | ⟨1, _⟩ => show win1_11.index t (1 : Fin 2) * 128 + 1 * (j 1).val = (j 1).val; omega
  show _ = (Sage.layer2 (V c main_v24) (V c main_v40) (V c main_arg7) (V c main_arg8) (Sage.rowVec (V c main_v41))) (((cfg1.win 11).blk t).view.emb j)
  rw [eR, conv2_tile_apply, tile0_row V c t ⟨(j 0).val, hj0⟩ hr, tile1_row V c t ⟨(j 0).val, hj0⟩ hr, whole2, whole3, whole4]
  rfl

/-- What point `t` writes back to the second output is block `t` of the head on the second convolution. -/
private theorem head_written (c : Dev nD) (t : Fin cfg1.N) :
    (dat1 (F := Ideal) V c).flushed 12 t
      = ((cfg1.win 12).blk t).view.read (Elt Ideal) (Sage.head (Sage.layer2 (V c main_v24) (V c main_v40) (V c main_arg7) (V c main_arg8) (Sage.rowVec (V c main_v41)))
          (V c main_arg10) (Sage.rowVec (V c main_v42)) (V c main_arg12) (Sage.rowVec (V c main_v43))
          (V c main_arg14) (Sage.rowVec (V c main_v44))) := by
  show (cfg1.win 12).cut (grid1.coords t) ((dat1 V c).after 12 t) = _
  rw [after1_12]
  unfold out1_12
  rw [View.canon_unit_zero zero_offsets]
  simp only [View.ld_unit_zero (S := S2000x256) zero_offsets, View.ld_unit_zero (S := S256x128) zero_offsets, View.ld_unit_zero (S := S1x128) zero_offsets,
    View.ld_unit_zero (S := S128x64) zero_offsets, View.ld_unit_zero (S := S1x64) zero_offsets, View.ld_unit_zero (S := S64x32) zero_offsets,
    View.ld_unit_zero (S := S1x32) zero_offsets, View.ld_unit_zero (S := S32x10) zero_offsets, View.ld_unit_zero (S := S1x10) zero_offsets]
  obtain ⟨-, -, -, -, -, -, -, -, -, -, -, -, ⟨e0, e1⟩⟩ := block_indices t
  have ht : t.val < 25 := t.isLt
  funext j
  have hj0 : (j 0).val < 2000 := (j 0).isLt
  have hj1 : (j 1).val < 10 := (j 1).isLt
  have hr : t.val * 2000 + (j 0).val < 50000 := by omega
  -- the left side is the payload at entry (j 0, j 1) of the tile
  trans k1_pay1 (k1_pay3 (iblk1 V c 0 t) (iblk1 V c 1 t) (iblk1 V c 2 t) (iblk1 V c 3 t) (iblk1 V c 4 t) (iblk1 V c 5 t)
        (iblk1 V c 6 t) (iblk1 V c 7 t)) (iblk1 V c 8 t) (iblk1 V c 9 t) (iblk1 V c 10 t)
      (ix2 (⟨(j 0).val, hj0⟩ : Fin 2000) (⟨(j 1).val, hj1⟩ : Fin 10))
  · exact congrArg _ (funext fun a => match a with | ⟨0, _⟩ => rfl | ⟨1, _⟩ => rfl)
  -- the right side is the array function at entry (2000 t + j 0, j 1)
  have eR : ((cfg1.win 12).blk t).view.emb j
      = ix2 (⟨t.val * 2000 + (j 0).val, hr⟩ : Fin 50000) (⟨(j 1).val, hj1⟩ : Fin 10) := by
    funext a; apply Fin.ext
    match a with
    | ⟨0, _⟩ => show win1_12.index t (0 : Fin 2) * 2000 + 1 * (j 0).val = t.val * 2000 + (j 0).val; omega
    | ⟨1, _⟩ => show win1_12.index t (1 : Fin 2) * 10 + 1 * (j 1).val = (j 1).val; omega
  show _ = (Sage.head (Sage.layer2 (V c main_v24) (V c main_v40) (V c main_arg7) (V c main_arg8) (Sage.rowVec (V c main_v41)))
          (V c main_arg10) (Sage.rowVec (V c main_v42)) (V c main_arg12) (Sage.rowVec (V c main_v43))
          (V c main_arg14) (Sage.rowVec (V c main_v44))) (((cfg1.win 12).blk t).view.emb j)
  rw [eR, head_tile_apply, tile0_row V c t ⟨(j 0).val, hj0⟩ hr, tile1_row V c t ⟨(j 0).val, hj0⟩ hr, whole2, whole3, whole4, whole5, whole6, whole7, whole8,
    whole9, whole10]
  rfl

/-! ## The 25 row blocks cover the outputs: row `r` is in the block of point `r / 2000` -/

/-- An index is in point `t`'s block of the first output iff each coordinate is in the block's range on its axis. -/
private theorem mem_conv2_block (t : Fin cfg1.N) (i : S50000x128.Idx) :
    i ∈ ((cfg1.win 11).blk t).view.set ↔ ∀ a : Fin 2, win1_11.index t a * S2000x128.size a ≤ (i a).val
      ∧ (i a).val < win1_11.index t a * S2000x128.size a + S2000x128.size a := by
  show i ∈ ((View.whole main_v45_0).slice (win1_11.rect t)).set ↔ _
  rw [View.set_slice_whole, Rect.mem_set_unit]
  exact Iff.rfl

/-- An index is in point `t`'s block of the second output iff each coordinate is in the block's range on its axis. -/
private theorem mem_head_block (t : Fin cfg1.N) (i : S50000x10.Idx) :
    i ∈ ((cfg1.win 12).blk t).view.set ↔ ∀ a : Fin 2, win1_12.index t a * S2000x10.size a ≤ (i a).val
      ∧ (i a).val < win1_12.index t a * S2000x10.size a + S2000x10.size a := by
  show i ∈ ((View.whole main_v45_1).slice (win1_12.rect t)).set ↔ _
  rw [View.set_slice_whole, Rect.mem_set_unit]
  exact Iff.rfl

/-- Every index of the first output is in some point's block. -/
private theorem conv2_cover (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have hN : (i 0).val / 2000 < cfg1.N := by rw [grid_points]; omega
  obtain ⟨-, -, -, -, -, -, -, -, -, -, -, ⟨e0, e1⟩, -⟩ := block_indices ⟨(i 0).val / 2000, hN⟩
  have e0' : win1_11.index ⟨(i 0).val / 2000, hN⟩ (0 : Fin 2) = (i 0).val / 2000 := e0
  refine ⟨⟨(i 0).val / 2000, hN⟩, flush1_11 _, ?_⟩
  rw [mem_conv2_block]
  intro a
  match a with
  | ⟨0, _⟩ =>
    show win1_11.index ⟨(i 0).val / 2000, hN⟩ (0 : Fin 2) * 2000 ≤ (i 0).val
      ∧ (i 0).val < win1_11.index ⟨(i 0).val / 2000, hN⟩ (0 : Fin 2) * 2000 + 2000
    omega
  | ⟨1, _⟩ =>
    show win1_11.index ⟨(i 0).val / 2000, hN⟩ (1 : Fin 2) * 128 ≤ (i 1).val
      ∧ (i 1).val < win1_11.index ⟨(i 0).val / 2000, hN⟩ (1 : Fin 2) * 128 + 128
    omega

/-- Every index of the second output is in some point's block. -/
private theorem head_cover (i : S50000x10.Idx) :
    ∃ t : Fin cfg1.N, (cfg1.win 12).flush t = true ∧ i ∈ ((cfg1.win 12).blk t).view.set := by
  have hi0 : (i 0).val < 50000 := (i 0).isLt
  have hi1 : (i 1).val < 10 := (i 1).isLt
  have hN : (i 0).val / 2000 < cfg1.N := by rw [grid_points]; omega
  obtain ⟨-, -, -, -, -, -, -, -, -, -, -, -, ⟨e0, e1⟩⟩ := block_indices ⟨(i 0).val / 2000, hN⟩
  have e0' : win1_12.index ⟨(i 0).val / 2000, hN⟩ (0 : Fin 2) = (i 0).val / 2000 := e0
  refine ⟨⟨(i 0).val / 2000, hN⟩, flush1_12 _, ?_⟩
  rw [mem_head_block]
  intro a
  match a with
  | ⟨0, _⟩ =>
    show win1_12.index ⟨(i 0).val / 2000, hN⟩ (0 : Fin 2) * 2000 ≤ (i 0).val
      ∧ (i 0).val < win1_12.index ⟨(i 0).val / 2000, hN⟩ (0 : Fin 2) * 2000 + 2000
    omega
  | ⟨1, _⟩ =>
    show win1_12.index ⟨(i 0).val / 2000, hN⟩ (1 : Fin 2) * 10 ≤ (i 1).val
      ∧ (i 1).val < win1_12.index ⟨(i 0).val / 2000, hN⟩ (1 : Fin 2) * 10 + 10
    omega

/-- The second region's first output array after its run: the second convolution of the two input arrays, row by row. -/
theorem arr1_11 (c : Dev nD) :
    (dat1 (F := Ideal) V c).arrAt 11 cfg1.N
      = Sage.layer2 (V c main_v24) (V c main_v40) (V c main_arg7) (V c main_arg8) (Sage.rowVec (V c main_v41)) :=
  (dat1 V c).arrAt_eq_of_cover 11 _ (fun t _ => conv2_written V c t) conv2_cover

/-- The second region's second output array after its run: the head on the second convolution, row by row. -/
theorem arr1_12 (c : Dev nD) :
    (dat1 (F := Ideal) V c).arrAt 12 cfg1.N
      = Sage.head (Sage.layer2 (V c main_v24) (V c main_v40) (V c main_arg7) (V c main_arg8) (Sage.rowVec (V c main_v41)))
          (V c main_arg10) (Sage.rowVec (V c main_v42)) (V c main_arg12) (Sage.rowVec (V c main_v43))
          (V c main_arg14) (Sage.rowVec (V c main_v44)) :=
  (dat1 V c).arrAt_eq_of_cover 12 _ (fun t _ => head_written V c t) head_cover

end Cert.KernelIdeal.Hand

end
-- ==== Proof.KMath.lean ====
import proofs.«152002_j20469814132750_1_alg».proof.Proof.Agg
import proofs.«152002_j20469814132750_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

/-!
# The host operations around the aggregation, read at an entry

* a vector laid as a column and broadcast along the rows, multiplied into an array, multiplies row `r` by entry `r`
  (`scale64_eq`, `scale256_eq`);
* one over the clipped degrees is the reciprocal entry by entry (`degInv_eq`): the literal `0x3F800000` is `1`;
* a clipped degree is at least one, so it is not zero (`degClip_ne`);
* a vector reshaped to one row and read back along that row is the vector (`rowVec_shapeCast`).
-/

noncomputable section

namespace Cert.KernelIdeal.Hand

open Idealize.ShloMosaic Idealize.ShloMosaic.ValueIdx
open Cert.KernelIdeal Cert.KernelIdeal.Gen Cert.LibDense

/-- The two spellings of the index `(p, q)` of a matrix. -/
theorem ix2_eq_ij {n k : Nat} (p : Fin n) (q : Fin k) :
    (ix2 p q : (⟨2, ![n, k]⟩ : Shape).Idx) = StableHlo.Predicate.ij p q := by
  funext a; match a with | ⟨0, _⟩ => rfl | ⟨1, _⟩ => rfl

/-- The two spellings of the index `p` of a vector. -/
theorem ix1_eq_ofFin {n : Nat} (p : Fin n) : (ix1 p : (⟨1, ![n]⟩ : Shape).Idx) = Shape.Idx.ofFin p := by
  funext a; match a with | ⟨0, _⟩ => rfl

/-- The float literal `0x3F800000` is one: sign 0, exponent 127, fraction 0. -/
theorem ofBits_one_f32 : Ideal.ofBits .f32 0x3F800000#32 = 1 := by
  simp [Ideal.ofBits, Ideal.ieee]
  rw [← EReal.coe_mul]
  norm_num

/-- A vector laid as a column and broadcast along the rows, multiplied in: row `r` times entry `r`. -/
theorem scale_apply {n k : Nat} (h₁ : (⟨1, ![n]⟩ : Shape).BroadcastsInDim ⟨2, ![n, 1]⟩ ![0])
    (h₂ : (⟨2, ![n, 1]⟩ : Shape).BroadcastsInDim ⟨2, ![n, k]⟩ ![0, 1])
    (s : FVec Ideal (⟨2, ![n, k]⟩ : Shape) .f32) (e : FVec Ideal (⟨1, ![n]⟩ : Shape) .f32) :
    mulf s (broadcastInDim ⟨2, ![n, k]⟩ ![0, 1] h₂ (broadcastInDim ⟨2, ![n, 1]⟩ ![0] h₁ e)) = Sage.meanMul s e := by
  funext i
  obtain ⟨p, q, rfl⟩ : ∃ (p : Fin n) (q : Fin k), i = ix2 p q := ⟨i 0, i 1, eq_ix2 i⟩
  refine (mulf_apply _ _ _).trans ?_
  show s (ix2 p q) * _ = s (ix2 p q) * e (ix1 p)
  rw [ix2_eq_ij, ix1_eq_ofFin, StableHlo.Predicate.bcast_rows h₁ h₂ e p q]

theorem scale64_eq (s : FVec Ideal S50000x64 .f32) (e : FVec Ideal S50000 .f32) : scale64 s e = Sage.meanMul s e :=
  scale_apply bcast_S50000_S50000x1_0 bcast_S50000x1_S50000x64_0_1 s e

theorem scale256_eq (s : FVec Ideal S50000x256 .f32) (e : FVec Ideal S50000 .f32) : scale256 s e = Sage.meanMul s e :=
  scale_apply bcast_S50000_S50000x1_0 bcast_S50000x1_S50000x256_0_1 s e

/-- The splat of the literal one is one at every entry. -/
theorem ones_apply (i : S50000.Idx) :
    broadcastInDim S50000 ![] bcast_S_S50000 (constant (F := Ideal) S_ .f32 0x3F800000#32) i = 1 := by
  rw [StableHlo.Predicate.bcast_scalar bcast_S_S50000 (by decide) _ i, constant_apply, ofBits_one_f32]

/-- The host's quotient of two arrays is the quotient entry by entry. -/
theorem hostDivf_apply {s : Shape} {φ : FTy} (a b : FVec Ideal s φ) (i : s.Idx) : Host.divf a b i = Ideal.div (a i) (b i) := rfl

theorem degInv_eq (dst : IVec S800000 32) : degInv dst = Sage.recip (degClip dst) := by
  funext i
  unfold degInv Sage.recip
  rw [hostDivf_apply, ones_apply]

/-- The larger of one and anything is not zero. -/
theorem max_one_ne_zero (a y : EReal) (ha : a = 1) : max a y ≠ 0 := by
  subst ha
  intro h0
  have h1 : (1 : EReal) ≤ max 1 y := le_max_left _ _
  rw [h0] at h1
  exact absurd h1 (by norm_num)

theorem degClip_ne (dst : IVec S800000 32) (i : S50000.Idx) : degClip dst i ≠ 0 := by
  unfold degClip
  rw [maximumf_apply]
  exact max_one_ne_zero _ _ (ones_apply i)

theorem rowVec_shapeCast {N : Nat} (h : (⟨1, ![N]⟩ : Shape).ShapeCasts ⟨2, ![1, N]⟩) (b : Row N) :
    Sage.rowVec (shapeCast (⟨2, ![1, N]⟩ : Shape) b h) = b := by
  funext i
  obtain ⟨q, rfl⟩ : ∃ q : Fin N, i = ix1 q := ⟨i 0, eq_ix1 i⟩
  show shapeCast (⟨2, ![1, N]⟩ : Shape) b h (ix2 (0 : Fin 1) q) = b (ix1 q)
  refine shapeCast_apply b h (ix2 (0 : Fin 1) q) (ix1 q) ?_
  rw [Shape.rowMajor_val_one, Shape.rowMajor_val_two]
  show q.val = 0 * N + q.val
  omega

end Cert.KernelIdeal.Hand

end
-- ==== Proof.KernelValue.lean ====
import proofs.«152002_j20469814132750_1_alg».proof.Proof.HostVals
import proofs.«152002_j20469814132750_1_alg».proof.Proof.Region0
import proofs.«152002_j20469814132750_1_alg».proof.Proof.Region1
import proofs.«152002_j20469814132750_1_alg».proof.Proof.KMath

/-!
# The kernel program's two results as the network of the specification

The first region leaves the hidden features: the first convolution of the features with the aggregated rows scaled by
one over the clipped degrees. Scaling by the reciprocal is dividing, because a clipped degree is not zero; so the
hidden features are the specification's. The second region reads them, and their aggregation scaled the same way,
and leaves the embeddings and the head's scores.
-/

set_option maxRecDepth 16384

noncomputable section

namespace Cert.KernelIdeal.Hand

open Idealize.ShloMosaic Idealize.ShloMosaic.TcCoe Idealize.SL.Sem
open Cert.KernelIdeal Cert.KernelIdeal.Gen Cert.LibDense

variable (m : (ℓ : Loc nD τ sig) → Buf (Elt Ideal) ℓ) (ρ : Dev nD → PrngReg)

/-- What the first region leaves: the specification's hidden features. -/
theorem hidden_eq (c : Dev nD) :
    (dat0 (V3 m ρ) c).arrAt 5 cfg0.N
      = Sage.netX1 (agg64 (m ((c : Thread nD τ).loc main_arg1)) (m ((c : Thread nD τ).loc main_arg2)) (m ((c : Thread nD τ).loc main_arg3))) (degClip (m ((c : Thread nD τ).loc main_arg2))) (m ((c : Thread nD τ).loc main_arg0)) (m ((c : Thread nD τ).loc main_arg4)) (m ((c : Thread nD τ).loc main_arg5)) (m ((c : Thread nD τ).loc main_arg6)) := by
  rw [arr0_5 (V3 m ρ) c, V3_arg0, V3_v22, V3_arg4, V3_arg5, V3_v23, scale64_eq, degInv_eq,
    Sage.meanMul_recip _ _ (degClip_ne _), rowVec_shapeCast]
  rfl

/-- The embeddings buffer at the end of the run: the specification's embeddings. -/
theorem kernel_emb (c : Dev nD) :
    W6 m ρ c (Proc.devRef .tc main_v45_0)
      = Sage.netEmb (agg64 (m ((c : Thread nD τ).loc main_arg1)) (m ((c : Thread nD τ).loc main_arg2)) (m ((c : Thread nD τ).loc main_arg3))) (agg256 (m ((c : Thread nD τ).loc main_arg1)) (m ((c : Thread nD τ).loc main_arg2)) (m ((c : Thread nD τ).loc main_arg3))) (degClip (m ((c : Thread nD τ).loc main_arg2))) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 11).trans ?_
  rw [arr1_11 (V5 m ρ) c, V5_v24, V5_v40, V5_arg7, V5_arg8, V5_v41, scale256_eq, degInv_eq,
    Sage.meanMul_recip _ _ (degClip_ne _), rowVec_shapeCast, hidden_eq]
  rfl

set_option maxHeartbeats 2000000 in
/-- The scores buffer at the end of the run: the specification's scores. -/
theorem kernel_out (c : Dev nD) :
    W6 m ρ c (Proc.devRef .tc main_v45_1)
      = Sage.netOut (agg64 (m ((c : Thread nD τ).loc main_arg1)) (m ((c : Thread nD τ).loc main_arg2)) (m ((c : Thread nD τ).loc main_arg3))) (agg256 (m ((c : Thread nD τ).loc main_arg1)) (m ((c : Thread nD τ).loc main_arg2)) (m ((c : Thread nD τ).loc main_arg3))) (degClip (m ((c : Thread nD τ).loc main_arg2))) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 12).trans ?_
  rw [arr1_12 (V5 m ρ) c, V5_v24, V5_v40, V5_arg7, V5_arg8, V5_v41, V5_arg10, V5_v42, V5_arg12, V5_v43, V5_arg14, V5_v44,
    scale256_eq, degInv_eq, Sage.meanMul_recip _ _ (degClip_ne _), rowVec_shapeCast, rowVec_shapeCast, rowVec_shapeCast,
    rowVec_shapeCast, hidden_eq]
  rfl

end Cert.KernelIdeal.Hand

end
-- ==== Proof.RefValue.lean ====
import proofs.«152002_j20469814132750_1_alg».proof.Proof.Gen.ReferenceIdeal.Read
import proofs.«152002_j20469814132750_1_alg».proof.Proof.Agg
import proofs.«152002_j20469814132750_1_alg».proof.Proof.Spec
import proofs.«152002_j20469814132750_1_alg».proof.Proof.LibContract
import proofs.«152002_j20469814132750_1_alg».proof.Proof.LibLayout

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen Cert.LibDense

/-! ## The aggregation and the degrees: the reference applies the host operations themselves

The reference's gather / scale / scatter-add chain and its clipped scatter-add of ones are the same operations on the
same operands as the host aggregation's; only the shape records are spelled in another namespace, with the same fields. -/

/-- The reference's aggregation of 64 features is the host aggregation. -/
private theorem agg64_ref (src dst : IVec S800000 32) (w : FVec Ideal S800000 .f32) (x : FVec Ideal S50000x64 .f32) :
    Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      (mulf (Host.gather gather_S50000x64_S800000x1_S800000x64_1_0_n_n_0_1_164 x
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        (broadcastInDim S800000x64 ![0, 1] bcast_S800000x1_S800000x64_0_1 (broadcastInDim S800000x1 ![0] bcast_S800000_S800000x1_0 w)))
      = Cert.KernelIdeal.Hand.agg64 src dst w x := by
  unfold Cert.KernelIdeal.Hand.agg64 Cert.KernelIdeal.Hand.srcIdx
  rfl

/-- The reference's aggregation of 256 features is the host aggregation. -/
private theorem agg256_ref (src dst : IVec S800000 32) (w : FVec Ideal S800000 .f32) (x : FVec Ideal S50000x256 .f32) :
    Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (mulf (Host.gather gather_S50000x256_S800000x1_S800000x256_1_0_n_n_0_1_1256 x
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        (broadcastInDim S800000x256 ![0, 1] bcast_S800000x1_S800000x256_0_1 (broadcastInDim S800000x1 ![0] bcast_S800000_S800000x1_0 w)))
      = Cert.KernelIdeal.Hand.agg256 src dst w x := by
  unfold Cert.KernelIdeal.Hand.agg256 Cert.KernelIdeal.Hand.srcIdx
  rfl

/-- The reference's clipped in-degrees are the host's. -/
private theorem degClip_ref (dst : IVec S800000 32) :
    maximumf (broadcastInDim S50000 ![] bcast_S_S50000 (id (constant (F := Ideal) S_ .f32 0x3F800000#32)))
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      = Cert.KernelIdeal.Hand.degClip dst := by
  unfold Cert.KernelIdeal.Hand.degClip
  rfl

/-! ## The dense parts, read at an entry

Entry `(p, q)` of `a · w` is `∑ k, a[p, k] · w[k, q]`; a bias broadcast down the rows reads `b[q]` there, a vector laid
as a column and broadcast along the rows reads its entry `p`. Each lemma is stated for arbitrary operands of the
plain contraction `[M, K] × [K, N]`, so that it serves every layer. -/

/-- A vector laid as a column and broadcast along the rows reads, at `(p, q)`, its entry `p`. -/
private theorem hostCol_apply {α : Type} (M K : Nat) (h₁ : (⟨1, ![M]⟩ : Shape).BroadcastsInDim ⟨2, ![M, 1]⟩ ![0])
    (h₂ : (⟨2, ![M, 1]⟩ : Shape).BroadcastsInDim ⟨2, ![M, K]⟩ ![0, 1]) (d : (⟨1, ![M]⟩ : Shape).Idx → α) (p : Fin M) (q : Fin K) :
    broadcastInDim ⟨2, ![M, K]⟩ ![0, 1] h₂ (broadcastInDim ⟨2, ![M, 1]⟩ ![0] h₁ d) (ix2 p q) = d (ix1 p) := by
  -- the index (p, q) and the index p, in the spelling the broadcast law is stated in
  have e2 : (ix2 p q : (⟨2, ![M, K]⟩ : Shape).Idx) = StableHlo.Predicate.ij p q := by
    funext a; match a with | ⟨0, _⟩ => rfl | ⟨1, _⟩ => rfl
  have e1 : (ix1 p : (⟨1, ![M]⟩ : Shape).Idx) = Shape.Idx.ofFin p := by
    funext a; match a with | ⟨0, _⟩ => rfl
  rw [e2, e1]
  exact StableHlo.Predicate.bcast_rows h₁ h₂ d p q

/-- The neighbourhood sums over the degrees broadcast along the rows: row `r` of `s` divided by `d[r]`. -/
private theorem meanDiv_host (M K : Nat) (h₁ : (⟨1, ![M]⟩ : Shape).BroadcastsInDim ⟨2, ![M, 1]⟩ ![0])
    (h₂ : (⟨2, ![M, 1]⟩ : Shape).BroadcastsInDim ⟨2, ![M, K]⟩ ![0, 1])
    (s : FVec Ideal (⟨2, ![M, K]⟩ : Shape) .f32) (d : FVec Ideal (⟨1, ![M]⟩ : Shape) .f32) :
    Host.divf s (broadcastInDim ⟨2, ![M, K]⟩ ![0, 1] h₂ (broadcastInDim ⟨2, ![M, 1]⟩ ![0] h₁ d)) = Sage.meanDiv s d := by
  funext i
  obtain ⟨p, q, rfl⟩ : ∃ (p : Fin M) (q : Fin K), i = ix2 p q := ⟨i 0, i 1, eq_ix2 i⟩
  show Ideal.div (s (ix2 p q)) (broadcastInDim ⟨2, ![M, K]⟩ ![0, 1] h₂ (broadcastInDim ⟨2, ![M, 1]⟩ ![0] h₁ d) (ix2 p q))
    = Ideal.div (s (ix2 p q)) (d (ix1 p))
  rw [hostCol_apply]

/-- `x · ws + y · wn + b`, row by row. -/
private theorem sage_host (M K N : Nat) (h₁ : (⟨1, ![N]⟩ : Shape).BroadcastsInDim ⟨2, ![1, N]⟩ ![1])
    (h₂ : (⟨2, ![1, N]⟩ : Shape).BroadcastsInDim ⟨2, ![M, N]⟩ ![0, 1])
    (x y : FVec Ideal (⟨2, ![M, K]⟩ : Shape) .f32) (ws wn : FVec Ideal (⟨2, ![K, N]⟩ : Shape) .f32)
    (b : FVec Ideal (⟨1, ![N]⟩ : Shape) .f32) :
    addf (addf (Host.dotGeneral (DotDims.plain M K N) none x ws) (Host.dotGeneral (DotDims.plain M K N) none y wn))
        (broadcastInDim ⟨2, ![M, N]⟩ ![0, 1] h₂ (broadcastInDim ⟨2, ![1, N]⟩ ![1] h₁ b))
      = Sage.ofRows fun r => Sage.sageRow (Sage.rowOf x r) (Sage.rowOf y r) ws wn b := by
  funext i
  obtain ⟨p, q, rfl⟩ : ∃ (p : Fin M) (q : Fin N), i = ix2 p q := ⟨i 0, i 1, eq_ix2 i⟩
  rw [addf_apply, addf_apply, dotGeneral_plain_apply, dotGeneral_plain_apply, hostBias_apply]
  rfl

/-- `x · w + b`, row by row. -/
private theorem dense_host (M K N : Nat) (h₁ : (⟨1, ![N]⟩ : Shape).BroadcastsInDim ⟨2, ![1, N]⟩ ![1])
    (h₂ : (⟨2, ![1, N]⟩ : Shape).BroadcastsInDim ⟨2, ![M, N]⟩ ![0, 1])
    (x : FVec Ideal (⟨2, ![M, K]⟩ : Shape) .f32) (w : FVec Ideal (⟨2, ![K, N]⟩ : Shape) .f32)
    (b : FVec Ideal (⟨1, ![N]⟩ : Shape) .f32) :
    addf (Host.dotGeneral (DotDims.plain M K N) none x w)
        (broadcastInDim ⟨2, ![M, N]⟩ ![0, 1] h₂ (broadcastInDim ⟨2, ![1, N]⟩ ![1] h₁ b))
      = Sage.ofRows fun r => Sage.dense (Sage.rowOf x r) w b := by
  funext i
  obtain ⟨p, q, rfl⟩ : ∃ (p : Fin M) (q : Fin N), i = ix2 p q := ⟨i 0, i 1, eq_ix2 i⟩
  rw [addf_apply, dotGeneral_plain_apply, hostBias_apply]
  rfl

/-- `max · 0` against the zero splat, row by row. -/
private theorem relu_host (M N : Nat) (h₀ : (⟨0, ![]⟩ : Shape).BroadcastsInDim ⟨2, ![M, N]⟩ ![])
    (x : FVec Ideal (⟨2, ![M, N]⟩ : Shape) .f32) :
    maximumf x (broadcastInDim ⟨2, ![M, N]⟩ ![] h₀ (constant (F := Ideal) (⟨0, ![]⟩ : Shape) .f32 0x00000000#32))
      = Sage.ofRows fun r => Sage.reluV (Sage.rowOf x r) := by
  rw [hostRelu_eq]
  funext i
  obtain ⟨p, q, rfl⟩ : ∃ (p : Fin M) (q : Fin N), i = ix2 p q := ⟨i 0, i 1, eq_ix2 i⟩
  rfl

/-! ## The layers in the reference's spelling

Each printed contraction record has the fields of the plain contraction `[50000, K] × [K, N]`. Over it the reference's
first convolution, second convolution and head are the network's layers, for arbitrary operands. -/

private theorem dot_64_256 : dot_S50000x64_S64x256_S50000x256_1_0_0_1_n_n = DotDims.plain 50000 64 256 := rfl
private theorem dot_256_128 : dot_S50000x256_S256x128_S50000x128_1_0_0_1_n_n = DotDims.plain 50000 256 128 := rfl
private theorem dot_128_64 : dot_S50000x128_S128x64_S50000x64_1_0_0_1_n_n = DotDims.plain 50000 128 64 := rfl
private theorem dot_64_32 : dot_S50000x64_S64x32_S50000x32_1_0_0_1_n_n = DotDims.plain 50000 64 32 := rfl
private theorem dot_32_10 : dot_S50000x32_S32x10_S50000x10_1_0_0_1_n_n = DotDims.plain 50000 32 10 := rfl

/-- The sums of 64 features over the degrees. -/
private theorem meanDiv64_ref (s : FVec Ideal S50000x64 .f32) (d : FVec Ideal S50000 .f32) :
    Host.divf s (broadcastInDim S50000x64 ![0, 1] bcast_S50000x1_S50000x64_0_1 (broadcastInDim S50000x1 ![0] bcast_S50000_S50000x1_0 d))
      = Sage.meanDiv s d :=
  meanDiv_host 50000 64 bcast_S50000_S50000x1_0 bcast_S50000x1_S50000x64_0_1 s d

/-- The sums of 256 features over the degrees. -/
private theorem meanDiv256_ref (s : FVec Ideal S50000x256 .f32) (d : FVec Ideal S50000 .f32) :
    Host.divf s (broadcastInDim S50000x256 ![0, 1] bcast_S50000x1_S50000x256_0_1 (broadcastInDim S50000x1 ![0] bcast_S50000_S50000x1_0 d))
      = Sage.meanDiv s d :=
  meanDiv_host 50000 256 bcast_S50000_S50000x1_0 bcast_S50000x1_S50000x256_0_1 s d

/-- The first convolution: `relu (x · ws + y · wn + b)`. -/
private theorem layer1_ref (x y : FVec Ideal S50000x64 .f32) (ws wn : FVec Ideal S64x256 .f32) (b : FVec Ideal S256 .f32) :
    maximumf (addf (addf (Host.dotGeneral dot_S50000x64_S64x256_S50000x256_1_0_0_1_n_n none x ws)
          (Host.dotGeneral dot_S50000x64_S64x256_S50000x256_1_0_0_1_n_n none y wn))
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
      = Sage.layer1 x y ws wn b := by
  rw [dot_64_256, sage_host 50000 64 256, relu_host 50000 256]
  rfl

/-- The second convolution: `x · ws + y · wn + b`. -/
private theorem layer2_ref (x y : FVec Ideal S50000x256 .f32) (ws wn : FVec Ideal S256x128 .f32) (b : FVec Ideal S128 .f32) :
    addf (addf (Host.dotGeneral dot_S50000x256_S256x128_S50000x128_1_0_0_1_n_n none x ws)
          (Host.dotGeneral dot_S50000x256_S256x128_S50000x128_1_0_0_1_n_n none y wn))
        (broadcastInDim S50000x128 ![0, 1] bcast_S1x128_S50000x128_0_1 (broadcastInDim S1x128 ![1] bcast_S128_S1x128_1 b))
      = Sage.layer2 x y ws wn b := by
  rw [dot_256_128, sage_host 50000 256 128]
  rfl

/-- The head: three dense layers, `relu` after the first two. -/
private theorem head_ref (e : FVec Ideal S50000x128 .f32) (wl1 : FVec Ideal S128x64 .f32) (bl1 : FVec Ideal S64 .f32)
    (wl2 : FVec Ideal S64x32 .f32) (bl2 : FVec Ideal S32 .f32) (wl3 : FVec Ideal S32x10 .f32) (bl3 : FVec Ideal S10 .f32) :
    addf (Host.dotGeneral dot_S50000x32_S32x10_S50000x10_1_0_0_1_n_n none
        (maximumf (addf (Host.dotGeneral dot_S50000x64_S64x32_S50000x32_1_0_0_1_n_n none
            (maximumf (addf (Host.dotGeneral dot_S50000x128_S128x64_S50000x64_1_0_0_1_n_n none e wl1)
                (broadcastInDim S50000x64 ![0, 1] bcast_S1x64_S50000x64_0_1 (broadcastInDim S1x64 ![1] bcast_S64_S1x64_1 bl1)))
              (broadcastInDim S50000x64 ![] bcast_S_S50000x64 (constant (F := Ideal) S_ .f32 0x00000000#32))) wl2)
            (broadcastInDim S50000x32 ![0, 1] bcast_S1x32_S50000x32_0_1 (broadcastInDim S1x32 ![1] bcast_S32_S1x32_1 bl2)))
          (broadcastInDim S50000x32 ![] bcast_S_S50000x32 (constant (F := Ideal) S_ .f32 0x00000000#32))) wl3)
        (broadcastInDim S50000x10 ![0, 1] bcast_S1x10_S50000x10_0_1 (broadcastInDim S1x10 ![1] bcast_S10_S1x10_1 bl3))
      = Sage.head e wl1 bl1 wl2 bl2 wl3 bl3 := by
  rw [dot_128_64, dot_64_32, dot_32_10, dense_host 50000 128 64, relu_host 50000 64, dense_host 50000 64 32,
    relu_host 50000 32, dense_host 50000 32 10]
  rfl

/-! ## The two results -/

variable (m : (ℓ : Loc nD τ sig) → Buf (Elt Ideal) ℓ)

/-- The reference's embeddings are the network's, with the aggregation and the clipped degrees the host operations. -/
theorem ref_emb (c : Dev nD) :
    Cert.ReferenceIdeal.Value.res_main_v54 (F := Ideal) m c
      = Sage.netEmb (Cert.KernelIdeal.Hand.agg64 (m ((c.tc : Thread nD τ).loc main_arg1)) (m ((c.tc : Thread nD τ).loc main_arg2)) (m ((c.tc : Thread nD τ).loc main_arg3)))
        (Cert.KernelIdeal.Hand.agg256 (m ((c.tc : Thread nD τ).loc main_arg1)) (m ((c.tc : Thread nD τ).loc main_arg2)) (m ((c.tc : Thread nD τ).loc main_arg3)))
        (Cert.KernelIdeal.Hand.degClip (m ((c.tc : Thread nD τ).loc main_arg2)))
        (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v54
  -- the host chains first, as whole-array operations; then the layers over them
  rw [agg64_ref, degClip_ref, meanDiv64_ref, layer1_ref, agg256_ref, meanDiv256_ref, layer2_ref]
  unfold Sage.netEmb Sage.netX1
  rfl

/-- The reference's scores are the network's. -/
theorem ref_out (c : Dev nD) :
    Cert.ReferenceIdeal.Value.res_main_v68 (F := Ideal) m c
      = Sage.netOut (Cert.KernelIdeal.Hand.agg64 (m ((c.tc : Thread nD τ).loc main_arg1)) (m ((c.tc : Thread nD τ).loc main_arg2)) (m ((c.tc : Thread nD τ).loc main_arg3)))
        (Cert.KernelIdeal.Hand.agg256 (m ((c.tc : Thread nD τ).loc main_arg1)) (m ((c.tc : Thread nD τ).loc main_arg2)) (m ((c.tc : Thread nD τ).loc main_arg3)))
        (Cert.KernelIdeal.Hand.degClip (m ((c.tc : Thread nD τ).loc main_arg2)))
        (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold Cert.ReferenceIdeal.Value.res_main_v68
  -- the embeddings as in `ref_emb`, then the head on them
  rw [agg64_ref, degClip_ref, meanDiv64_ref, layer1_ref, agg256_ref, meanDiv256_ref, layer2_ref, head_ref]
  unfold Sage.netOut Sage.netEmb Sage.netX1
  rfl

end Cert.ReferenceIdeal.Hand

end
-- ==== Proof.lean ====
/- The proof of `Cert.Claim`: the three frames, the idealization's conjunct and the equality of the two idealized programs'
   results over the extended reals.

   The network is a two-layer graph convolution with mean aggregation and a three-layer head. Both programs gather the
   rows of the features at the edges' sources, weight them, and sum them into the edges' destinations; the kernel
   program multiplies the sums by one over the clipped in-degree, the reference divides by the clipped in-degree. A
   clipped degree is at least one, so it is not zero, and on the extended reals `s · (1 / d) = s / d` off zero: both are
   `s · d⁻¹`. Everything else is dense and acts row by row: the kernel program computes it in 25 tiles of 2000 rows, the
   reference on all 50000 rows at once, and a row of the result depends on the same row of the inputs only. So both
   results are the one network of `Cert.Sage` (`netOut`, `netEmb`) of the argument arrays, the aggregation the same
   whole-array function on both sides. No step needs the inputs finite. -/
import proofs.«152002_j20469814132750_1_alg».proof.Defs
import proofs.«152002_j20469814132750_1_alg».proof.Proof.Gen.Kernel
import proofs.«152002_j20469814132750_1_alg».proof.Proof.Gen.Kernel.Frame
import proofs.«152002_j20469814132750_1_alg».proof.Proof.Gen.KernelIdeal
import proofs.«152002_j20469814132750_1_alg».proof.Proof.Gen.KernelIdeal.Frame
import proofs.«152002_j20469814132750_1_alg».proof.Proof.Gen.ReferenceIdeal
import proofs.«152002_j20469814132750_1_alg».proof.Proof.Gen.Pre_finite_inputs
import proofs.«152002_j20469814132750_1_alg».proof.Proof.Gen.ReferenceIdeal.Run
import proofs.«152002_j20469814132750_1_alg».proof.Proof.Gen.ReferenceIdeal.Read
import proofs.«152002_j20469814132750_1_alg».proof.Proof.KernelRun
import proofs.«152002_j20469814132750_1_alg».proof.Proof.KernelValue
import proofs.«152002_j20469814132750_1_alg».proof.Proof.RefValue
import Idealize.ShloMosaic.Adequacy
import Idealize.ShloMosaic.Init

set_option maxRecDepth 16384

noncomputable section

namespace Cert.Proof

open Idealize.ShloMosaic Idealize.SL.Sem

/-- The scores as the network of the kernel program's argument arrays. -/
def scores (m : (ℓ : Loc Cert.KernelIdeal.nD Cert.KernelIdeal.τ Cert.KernelIdeal.sig) → Buf (Elt Ideal) ℓ) (c : Dev Cert.KernelIdeal.nD) :
    Cert.LibDense.Mat 50000 10 :=
  Cert.Sage.netOut (Cert.KernelIdeal.Hand.agg64 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (Cert.KernelIdeal.Hand.agg256 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (Cert.KernelIdeal.Hand.degClip (m ((c.tc : Thread Cert.KernelIdeal.nD Cert.KernelIdeal.τ).loc Cert.KernelIdeal.main_arg2)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))

/-- The embeddings as the network of the kernel program's argument arrays. -/
def embeddings (m : (ℓ : Loc Cert.KernelIdeal.nD Cert.KernelIdeal.τ Cert.KernelIdeal.sig) → Buf (Elt Ideal) ℓ) (c : Dev Cert.KernelIdeal.nD) :
    Cert.LibDense.Mat 50000 128 :=
  Cert.Sage.netEmb (Cert.KernelIdeal.Hand.agg64 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (Cert.KernelIdeal.Hand.agg256 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (Cert.KernelIdeal.Hand.degClip (m ((c.tc : Thread Cert.KernelIdeal.nD Cert.KernelIdeal.τ).loc Cert.KernelIdeal.main_arg2)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  fun m ρ m' ρ' _ hagree => ⟨fun c => scores m c, fun c => embeddings m c,
    (θ_run Cert.KernelIdeal.defs _ _).mono
      (fun r h c => ⟨(h c).1.trans (Cert.KernelIdeal.Hand.kernel_out m ρ c), (h c).2.1.trans (Cert.KernelIdeal.Hand.kernel_emb m ρ c), (h c).2.2⟩)
      (Cert.KernelIdeal.Run.run_named (F := Ideal) m ρ),
    (θ_run Cert.ReferenceIdeal.defs _ _).mono
      (fun r h c => by
        obtain ⟨a0, a1, a2, a3, a4, a5, a6, a7, a8, a9, a10, a11, a12, a13, a14, a15⟩ := hagree c
        refine ⟨(h c).1.trans ((Cert.ReferenceIdeal.Hand.ref_out m' c).trans ?_),
          (h c).2.1.trans ((Cert.ReferenceIdeal.Hand.ref_emb m' c).trans ?_), (h c).2.2⟩
        · rw [a0, a1, a2, a3, a4, a5, a6, a7, a8, a9, a10, a11, a12, a13, a14, a15]; rfl
        · rw [a0, a1, a2, a3, a4, a5, a6, a7, a8, a9]; rfl)
      (Cert.ReferenceIdeal.Value.run (F := Ideal) m' ρ')⟩⟩

end Cert.Proof

end
